-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  main_v53

def fn_part2 {F : FTy → Type} [FloatOps F] (main_arg9 : FVec F S128x128 .f32) (main_arg10 : FVec F S128 .f32) (main_arg11 : FVec F S128x10 .f32) (main_arg12 : FVec F S10 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x10 .f32 := Host.absf main_arg11
  let main_cst_16 : FVec F S_ .f32 := constant S_ .f32 0x7F800000#32
  let main_v45 : FVec F S128x10 .f32 := broadcastInDim S128x10 ![] bcast_S_S128x10 main_cst_16
  let main_v46 : IVec S128x10 1 := cmpf .olt main_v44 main_v45
  let main_c_17 : IVec S_ 1 := constantI S_ 1 1#1
  let main_v47 : IVec S_ 1 := (fun x v => Host.reduce IntOp.andi x v reducesTo_S128x10_S_d0_1 h_S_) main_v46 main_c_17
  let main_v48 : IVec S_ 1 := andi main_v43 main_v47
  let main_v49 : FVec F S10 .f32 := Host.absf main_arg12
  let main_cst_18 : FVec F S_ .f32 := constant S_ .f32 0x7F800000#32
  let main_v50 : FVec F S10 .f32 := broadcastInDim S10 ![] bcast_S_S10 main_cst_18
  fn_part3 (F := F) main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S128x10 .f32) (main_arg12 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x10 .f32) (main_arg12 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S5000x128 : Shape := ⟨2, ![5000, 128]⟩
abbrev S1x128 : Shape := ⟨2, ![1, 128]⟩
abbrev S50000x1 : Shape := ⟨2, ![50000, 1]⟩
abbrev S10x64x128 : Shape := ⟨3, ![10, 64, 128]⟩
abbrev S10x64x1 : Shape := ⟨3, ![10, 64, 1]⟩
abbrev S5000x1 : Shape := ⟨2, ![5000, 1]⟩
abbrev S1x64x128 : Shape := ⟨3, ![1, 64, 128]⟩
abbrev S1x64x1 : Shape := ⟨3, ![1, 64, 1]⟩
abbrev S1x64 : Shape := ⟨2, ![1, 64]⟩
abbrev S5000x64 : Shape := ⟨2, ![5000, 64]⟩
abbrev S64x128 : Shape := ⟨2, ![64, 128]⟩
abbrev S64x1 : Shape := ⟨2, ![64, 1]⟩
abbrev S64x10 : Shape := ⟨2, ![64, 10]⟩
abbrev S1x10 : Shape := ⟨2, ![1, 10]⟩

abbrev nBuf : Space → Nat
  | .hbm => 72
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x10, .f32⟩
  | .hbm, ⟨12, _⟩ => ⟨S10, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S128x128, .bf16⟩
  | .hbm, ⟨18, _⟩ => ⟨S128x128, .bf16⟩
  | .hbm, ⟨19, _⟩ => ⟨S128x128, .bf16⟩
  | .hbm, ⟨20, _⟩ => ⟨S128x128, .bf16⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x128, .f32⟩
  | .hbm, ⟨30, _⟩ => ⟨S_, .f32⟩
  | .hbm, ⟨31, _⟩ => ⟨S50000x128, .f32⟩
  | .hbm, ⟨32, _⟩ => ⟨S800000x1, .i32⟩
  | .hbm, ⟨33, _⟩ => ⟨S50000x128, .f32⟩
  | .hbm, ⟨34, _⟩ => ⟨S50000x128, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x128, .f32⟩
  | .hbm, ⟨44, _⟩ => ⟨S_, .f32⟩
  | .hbm, ⟨45, _⟩ => ⟨S50000x128, .f32⟩
  | .hbm, ⟨46, _⟩ => ⟨S800000x1, .i32⟩
  | .hbm, ⟨47, _⟩ => ⟨S50000x128, .f32⟩
  | .hbm, ⟨48, _⟩ => ⟨S50000x1, .i32⟩
  | .hbm, ⟨49, _⟩ => ⟨S10x64x128, .f32⟩
  | .hbm, ⟨50, _⟩ => ⟨S10x64x1, .f32⟩
  | .hbm, ⟨51, _⟩ => ⟨S_, .f32⟩
  | .hbm, ⟨52, _⟩ => ⟨S64x128, .f32⟩
  | .hbm, ⟨53, _⟩ => ⟨S_, .f32⟩
  | .hbm, ⟨54, _⟩ => ⟨S64x1, .f32⟩
  | .hbm, ⟨55, _⟩ => ⟨S_, .f32⟩
  | .hbm, ⟨56, _⟩ => ⟨S64x1, .f32⟩
  | .hbm, ⟨57, _⟩ => ⟨S64x1, .f32⟩
  | .hbm, ⟨58, _⟩ => ⟨S64x128, .f32⟩
  | .hbm, ⟨59, _⟩ => ⟨S64x128, .f32⟩
  | .hbm, ⟨60, _⟩ => ⟨S64x10, .f32⟩
  | .hbm, ⟨61, _⟩ => ⟨S1x10, .f32⟩
  | .hbm, ⟨62, _⟩ => ⟨S64x10, .f32⟩
  | .hbm, ⟨63, _⟩ => ⟨S64x10, .f32⟩
  | .hbm, ⟨64, _⟩ => ⟨S64x10, .f32⟩
  | .hbm, ⟨65, _⟩ => ⟨S64x10, .f32⟩
  | .hbm, ⟨66, _⟩ => ⟨S_, .f32⟩
  | .hbm, ⟨67, _⟩ => ⟨S64x10, .f32⟩
  | .hbm, ⟨68, _⟩ => ⟨S64x10, .f32⟩
  | .hbm, ⟨69, _⟩ => ⟨S_, .f32⟩
  | .hbm, ⟨70, _⟩ => ⟨S64x10, .f32⟩
  | .hbm, ⟨71, _⟩ => ⟨S64x10, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .bf16⟩
  | .local _ .vmem, ⟨5, _⟩ => ⟨S128, .f32⟩
  | .local _ .vmem, ⟨6, _⟩ => ⟨S128x128, .bf16⟩
  | .local _ .vmem, ⟨7, _⟩ => ⟨S128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .bf16⟩
  | .local _ .vmem, ⟨15, _⟩ => ⟨S128, .f32⟩
  | .local _ .vmem, ⟨16, _⟩ => ⟨S128x128, .bf16⟩
  | .local _ .vmem, ⟨17, _⟩ => ⟨S128, .f32⟩
  | .local _ .vmem, ⟨18, _⟩ => ⟨S5000x1, .i32⟩
  | .local _ .vmem, ⟨19, _⟩ => ⟨S5000x1, .i32⟩
  | .local _ .vmem, ⟨20, _⟩ => ⟨S1x64x128, .f32⟩
  | .local _ .vmem, ⟨21, _⟩ => ⟨S1x64x128, .f32⟩
  | .local _ .vmem, ⟨22, _⟩ => ⟨S1x64x1, .f32⟩
  | .local _ .vmem, ⟨23, _⟩ => ⟨S1x64x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_1 : Ref sig .tc := ⟨.hbm, 35, rfl⟩
abbrev main_v19 : Ref sig .tc := ⟨.hbm, 36, rfl⟩
abbrev main_v20 : Ref sig .tc := ⟨.hbm, 37, rfl⟩
abbrev main_c_2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30_0 : Ref sig .tc := ⟨.hbm, 49, rfl⟩
abbrev main_v30_1 : Ref sig .tc := ⟨.hbm, 50, rfl⟩
abbrev main_cst_4 : Ref sig .tc := ⟨.hbm, 51, rfl⟩
abbrev main_v31 : Ref sig .tc := ⟨.hbm, 52, rfl⟩
abbrev main_cst_5 : Ref sig .tc := ⟨.hbm, 53, rfl⟩
abbrev main_v32 : Ref sig .tc := ⟨.hbm, 54, rfl⟩
abbrev main_cst_6 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_7 : Ref sig .tc := ⟨.hbm, 66, rfl⟩
abbrev main_v43 : Ref sig .tc := ⟨.hbm, 67, rfl⟩
abbrev main_v44 : Ref sig .tc := ⟨.hbm, 68, rfl⟩
abbrev main_cst_8 : Ref sig .tc := ⟨.hbm, 69, rfl⟩
abbrev main_v45 : Ref sig .tc := ⟨.hbm, 70, rfl⟩
abbrev main_v46 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc1_stg8_0 : Ref sig .tc := ⟨.vmem, 22, rfl⟩
abbrev cc1_stg8_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc1_sem7_0 : DmaSem sig := 20
abbrev cc1_sem7_1 : DmaSem sig := 21
abbrev cc1_sem8_0 : DmaSem sig := 22
abbrev cc1_sem8_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x1 .i32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x64x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x64x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  shapeCasts_S50000_S50000x1 : S50000.ShapeCasts S50000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S1x64_d1_w32 : S1x64.Iotas .tc 32 [1]
  broadcasts_S5000x1_S5000x64 : S5000x1.Broadcasts S5000x64
  broadcasts_S1x64_S5000x64 : S1x64.Broadcasts S5000x64
  natLt_1_32 : 1 < 32
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  shapeCasts_S64x128_S1x64x128 : S64x128.ShapeCasts S1x64x128
  inb_S1x64x1_S1x64x1_0_0_0 : ∀ a, (![0, 0, 0] : Fin 3 → Nat) a + S1x64x1.size a ≤ S1x64x1.size a
  h_S1x64x1 : 0 < S1x64x1.numel
  shapeCasts_S1x64x1_S64x1 : S1x64x1.ShapeCasts S64x1
  shapeCasts_S64x1_S1x64x1 : S64x1.ShapeCasts S1x64x1
  reducesTo_S10x64x128_S64x128_d0 : S10x64x128.ReducesTo [0] S64x128
  h_S_ : 0 < S_.numel
  reducesTo_S10x64x1_S64x1_d0 : S10x64x1.ReducesTo [0] S64x1
  bcast_S_S64x1 : S_.BroadcastsInDim S64x1 (![] : Fin 0 → Fin S64x1.rank)
  bcast_S64x1_S64x128_0_1 : S64x1.BroadcastsInDim S64x128 (![0, 1] : Fin 2 → Fin S64x128.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  bcast_S_S64x10 : S_.BroadcastsInDim S64x10 (![] : Fin 0 → Fin S64x10.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x64_S5000x128_S64x128_0_0_1_1_n_n_wf : DotDims.WF S5000x64 S5000x128 S64x128 [0] [0] [1] [1] [] []
  dot_S5000x64_S5000x1_S64x1_0_0_1_1_n_n_wf : DotDims.WF S5000x64 S5000x1 S64x1 [0] [0] [1] [1] [] []
  dot_S64x128_S128x10_S64x10_1_0_0_1_n_n_wf : DotDims.WF S64x128 S128x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x1.size a ≤ S50000x1.size a
  hwx1_6 : ∀ i : grid1.Coords, EltTy.bits .i32 = 32 ∨ (Rect.block (s := S50000x1) S5000x1.size (cc1_transform_6 i) (hinb1_6 i)).WholeWords (EltTy.packing .i32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x64x128.size a ≤ S10x64x128.size a
  hwx1_7 : ∀ i : grid1.Coords, EltTy.bits .f32 = 32 ∨ (Rect.block (s := S10x64x128) S1x64x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x64x1.size a ≤ S10x64x1.size a
  hwx1_8 : ∀ i : grid1.Coords, EltTy.bits .f32 = 32 ∨ (Rect.block (s := S10x64x1) S1x64x1.size (cc1_transform_8 i) (hinb1_8 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x64_S5000x128_S64x128_0_0_1_1_n_n : DotDims S5000x64 S5000x128 S64x128 where
  lhsContracting := [0]
  rhsContracting := [0]
  lhsNonContracting := [1]
  rhsNonContracting := [1]
  lhsBatch := []
  rhsBatch := []
  wf := dot_S5000x64_S5000x128_S64x128_0_0_1_1_n_n_wf
def dot_S5000x64_S5000x1_S64x1_0_0_1_1_n_n : DotDims S5000x64 S5000x1 S64x1 where
  lhsContracting := [0]
  rhsContracting := [0]
  lhsNonContracting := [1]
  rhsNonContracting := [1]
  lhsBatch := []
  rhsBatch := []
  wf := dot_S5000x64_S5000x1_S64x1_0_0_1_1_n_n_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v18) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S5000x1.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v30_0) S1x64x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v30_1) S1x64x1.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S64x128 : Shape := ⟨2, ![64, 128]⟩
abbrev S50000x1 : Shape := ⟨2, ![50000, 1]⟩
abbrev S64x1 : Shape := ⟨2, ![64, 1]⟩
abbrev S64x10 : Shape := ⟨2, ![64, 10]⟩
abbrev S1x10 : Shape := ⟨2, ![1, 10]⟩

abbrev nBuf : Space → Nat
  | .hbm => 100
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x10, .f32⟩
  | .hbm, ⟨12, _⟩ => ⟨S10, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S_, .f32⟩
  | .hbm, ⟨27, _⟩ => ⟨S50000x128, .f32⟩
  | .hbm, ⟨28, _⟩ => ⟨S800000x1, .i32⟩
  | .hbm, ⟨29, _⟩ => ⟨S50000x128, .f32⟩
  | .hbm, ⟨30, _⟩ => ⟨S50000x128, .f32⟩
  | .hbm, ⟨31, _⟩ => ⟨S50000x128, .f32⟩
  | .hbm, ⟨32, _⟩ => ⟨S1x128, .f32⟩
  | .hbm, ⟨33, _⟩ => ⟨S50000x128, .f32⟩
  | .hbm, ⟨34, _⟩ => ⟨S50000x128, .f32⟩
  | .hbm, ⟨35, _⟩ => ⟨S_, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S1x128, .f32⟩
  | .hbm, ⟨40, _⟩ => ⟨S50000x128, .f32⟩
  | .hbm, ⟨41, _⟩ => ⟨S50000x128, .f32⟩
  | .hbm, ⟨42, _⟩ => ⟨S_, .f32⟩
  | .hbm, ⟨43, _⟩ => ⟨S50000x128, .f32⟩
  | .hbm, ⟨44, _⟩ => ⟨S50000x128, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x128, .f32⟩
  | .hbm, ⟨54, _⟩ => ⟨S_, .f32⟩
  | .hbm, ⟨55, _⟩ => ⟨S50000x128, .f32⟩
  | .hbm, ⟨56, _⟩ => ⟨S800000x1, .i32⟩
  | .hbm, ⟨57, _⟩ => ⟨S50000x128, .f32⟩
  | .hbm, ⟨58, _⟩ => ⟨S50000x128, .f32⟩
  | .hbm, ⟨59, _⟩ => ⟨S50000x128, .f32⟩
  | .hbm, ⟨60, _⟩ => ⟨S1x128, .f32⟩
  | .hbm, ⟨61, _⟩ => ⟨S50000x128, .f32⟩
  | .hbm, ⟨62, _⟩ => ⟨S50000x128, .f32⟩
  | .hbm, ⟨63, _⟩ => ⟨S_, .f32⟩
  | .hbm, ⟨64, _⟩ => ⟨S50000x128, .f32⟩
  | .hbm, ⟨65, _⟩ => ⟨S50000x128, .f32⟩
  | .hbm, ⟨66, _⟩ => ⟨S50000x128, .f32⟩
  | .hbm, ⟨67, _⟩ => ⟨S1x128, .f32⟩
  | .hbm, ⟨68, _⟩ => ⟨S50000x128, .f32⟩
  | .hbm, ⟨69, _⟩ => ⟨S50000x128, .f32⟩
  | .hbm, ⟨70, _⟩ => ⟨S_, .f32⟩
  | .hbm, ⟨71, _⟩ => ⟨S50000x128, .f32⟩
  | .hbm, ⟨72, _⟩ => ⟨S50000x128, .f32⟩
  | .hbm, ⟨73, _⟩ => ⟨S_, .f32⟩
  | .hbm, ⟨74, _⟩ => ⟨S64x128, .f32⟩
  | .hbm, ⟨75, _⟩ => ⟨S50000x1, .i32⟩
  | .hbm, ⟨76, _⟩ => ⟨S64x128, .f32⟩
  | .hbm, ⟨77, _⟩ => ⟨S_, .f32⟩
  | .hbm, ⟨78, _⟩ => ⟨S50000x1, .f32⟩
  | .hbm, ⟨79, _⟩ => ⟨S_, .f32⟩
  | .hbm, ⟨80, _⟩ => ⟨S64x1, .f32⟩
  | .hbm, ⟨81, _⟩ => ⟨S50000x1, .i32⟩
  | .hbm, ⟨82, _⟩ => ⟨S64x1, .f32⟩
  | .hbm, ⟨83, _⟩ => ⟨S_, .f32⟩
  | .hbm, ⟨84, _⟩ => ⟨S64x1, .f32⟩
  | .hbm, ⟨85, _⟩ => ⟨S64x1, .f32⟩
  | .hbm, ⟨86, _⟩ => ⟨S64x128, .f32⟩
  | .hbm, ⟨87, _⟩ => ⟨S64x128, .f32⟩
  | .hbm, ⟨88, _⟩ => ⟨S64x10, .f32⟩
  | .hbm, ⟨89, _⟩ => ⟨S1x10, .f32⟩
  | .hbm, ⟨90, _⟩ => ⟨S64x10, .f32⟩
  | .hbm, ⟨91, _⟩ => ⟨S64x10, .f32⟩
  | .hbm, ⟨92, _⟩ => ⟨S64x10, .f32⟩
  | .hbm, ⟨93, _⟩ => ⟨S64x10, .f32⟩
  | .hbm, ⟨94, _⟩ => ⟨S_, .f32⟩
  | .hbm, ⟨95, _⟩ => ⟨S64x10, .f32⟩
  | .hbm, ⟨96, _⟩ => ⟨S64x10, .f32⟩
  | .hbm, ⟨97, _⟩ => ⟨S_, .f32⟩
  | .hbm, ⟨98, _⟩ => ⟨S64x10, .f32⟩
  | .hbm, ⟨99, _⟩ => ⟨S64x10, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_call0_cst : Ref sig .tc := ⟨.hbm, 35, rfl⟩
abbrev main_call0_v0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_call1_cst : Ref sig .tc := ⟨.hbm, 42, rfl⟩
abbrev main_call1_v0 : Ref sig .tc := ⟨.hbm, 43, rfl⟩
abbrev main_v24 : Ref sig .tc := ⟨.hbm, 44, rfl⟩
abbrev main_c_1 : Ref sig .tc := ⟨.hbm, 45, rfl⟩
abbrev main_v25 : Ref sig .tc := ⟨.hbm, 46, rfl⟩
abbrev main_v26 : Ref sig .tc := ⟨.hbm, 47, rfl⟩
abbrev main_c_2 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_3 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_call2_cst : Ref sig .tc := ⟨.hbm, 63, rfl⟩
abbrev main_call2_v0 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_call3_cst : Ref sig .tc := ⟨.hbm, 70, rfl⟩
abbrev main_call3_v0 : Ref sig .tc := ⟨.hbm, 71, rfl⟩
abbrev main_v45 : Ref sig .tc := ⟨.hbm, 72, rfl⟩
abbrev main_cst_4 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_5 : Ref sig .tc := ⟨.hbm, 77, rfl⟩
abbrev main_v49 : Ref sig .tc := ⟨.hbm, 78, rfl⟩
abbrev main_cst_6 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_7 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_8 : Ref sig .tc := ⟨.hbm, 94, rfl⟩
abbrev main_v63 : Ref sig .tc := ⟨.hbm, 95, rfl⟩
abbrev main_v64 : Ref sig .tc := ⟨.hbm, 96, rfl⟩
abbrev main_cst_9 : Ref sig .tc := ⟨.hbm, 97, rfl⟩
abbrev main_v65 : Ref sig .tc := ⟨.hbm, 98, rfl⟩
abbrev main_v66 : Ref sig .tc := ⟨.hbm, 99, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64x128 : S_.BroadcastsInDim S64x128 (![] : Fin 0 → Fin S64x128.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S_S64x1 : S_.BroadcastsInDim S64x1 (![] : Fin 0 → Fin S64x1.rank)
  bcast_S64x1_S64x128_0_1 : S64x1.BroadcastsInDim S64x128 (![0, 1] : Fin 2 → Fin S64x128.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  bcast_S_S64x10 : S_.BroadcastsInDim S64x10 (![] : Fin 0 → Fin S64x10.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S64x128_S50000x1_S50000x128_1_0_0_1_wf : ScatterDims.WF S64x128 S50000x1 S50000x128 [1] [0] [0] 1
  scatter_S64x1_S50000x1_S50000x1_1_0_0_1_wf : ScatterDims.WF S64x1 S50000x1 S50000x1 [1] [0] [0] 1
  dot_S64x128_S128x10_S64x10_1_0_0_1_n_n_wf : DotDims.WF S64x128 S128x10 S64x10 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64x1_S50000x1_S50000x1_1_0_0_1 : ScatterDims S64x1 S50000x1 S50000x1 where
  updateWindowDims := [1]
  insertedWindowDims := [0]
  scatterDimsToOperandDims := [0]
  indexVectorDim := 1
  wf := scatter_S64x1_S50000x1_S50000x1_1_0_0_1_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

class Facts : Prop extends Facts₀ where

variable [Facts]
-- ==== Proof.Chain.lean ====
/-
  The reference's result as a composition of four named maps.

  `agg E h`: every node's sum of its in-neighbours' rows of `h` (the edge list `E` holds sources in row 0 and
  destinations in row 1; a negative source counts from the end). `mlp x a …`: the two-layer perceptron of `x + a`,
  row by row. `pool b h` and `count b`: per graph, the sum of the rows of `h` and the number of nodes whose graph
  number in `b` is that graph. `tail S C …`: the mean `S / max C 1`, the last linear layer and the logistic function.
  The reference's result is `tail (pool b h₂) (count b) …` with `h₁ = mlp x (agg E x) …`, `h₂ = mlp h₁ (agg E h₁) …`.
-/
import proofs.«403606_j52819507806389_3_alg».proof.Proof.Gen.ReferenceIdeal.Run

noncomputable section

namespace Cert.Chain

open Cert.ReferenceIdeal Cert.ReferenceIdeal.Gen Idealize.ShloMosaic Idealize.ShloMosaic.TcCoe Idealize.SL.Sem

variable {F : FTy → Type} [FloatOps F]

/-- The edges' sources, a negative one counted from the end, as a column of gather indices. -/
def srcIdx (E : IVec S2x800000 32) : IVec S800000x1 32 :=
  broadcastInDim S800000x1 ![0] bcast_S800000_S800000x1_0 (select (cmpi .slt (shapeCast _ (extractStridedSlice S1x800000 ![0, 0] E slices_S2x800000_S1x800000_0_0) shapeCasts_S1x800000_S800000) (broadcastInDim S800000 ![] bcast_S_S800000 (constantI S_ 32 0#32))) (addi (shapeCast _ (extractStridedSlice S1x800000 ![0, 0] E slices_S2x800000_S1x800000_0_0) shapeCasts_S1x800000_S800000) (broadcastInDim S800000 ![] bcast_S_S800000 (constantI S_ 32 50000#32))) (shapeCast _ (extractStridedSlice S1x800000 ![0, 0] E slices_S2x800000_S1x800000_0_0) shapeCasts_S1x800000_S800000))

/-- The edges' destinations as a column of scatter indices. -/
def dstIdx (E : IVec S2x800000 32) : IVec S800000x1 32 :=
  broadcastInDim S800000x1 ![0] bcast_S800000_S800000x1_0 (shapeCast _ (extractStridedSlice S1x800000 ![1, 0] E slices_S2x800000_S1x800000_1_0) shapeCasts_S1x800000_S800000)

/-- Every node's sum of its in-neighbours' rows. -/
def agg (E : IVec S2x800000 32) (h : FVec F S50000x128 .f32) : FVec F S50000x128 .f32 :=
  Host.scatterAdd scatter_S50000x128_S800000x1_S800000x128_1_0_0_1 (broadcastInDim S50000x128 ![] bcast_S_S50000x128 (constant S_ .f32 0x00000000#32)) (dstIdx E) (Host.gather gather_S50000x128_S800000x1_S800000x128_1_0_n_n_0_1_1128 h (srcIdx E))

/-- The two-layer perceptron of `x + a`, row by row, a rectifier after each layer. -/
def mlp (x a : FVec F S50000x128 .f32) (Wa : FVec F S128x128 .f32) (ba : FVec F S128 .f32) (Wb : FVec F S128x128 .f32)
    (bb : FVec F S128 .f32) : FVec F S50000x128 .f32 :=
  maximumf (addf (Host.dotGeneral dot_S50000x128_S128x128_S50000x128_1_0_0_1_n_n none (maximumf (addf (Host.dotGeneral dot_S50000x128_S128x128_S50000x128_1_0_0_1_n_n none (addf x a) Wa) (broadcastInDim S50000x128 ![0, 1] bcast_S1x128_S50000x128_0_1 (broadcastInDim S1x128 ![1] bcast_S128_S1x128_1 ba))) (broadcastInDim S50000x128 ![] bcast_S_S50000x128 (constant S_ .f32 0x00000000#32))) Wb) (broadcastInDim S50000x128 ![0, 1] bcast_S1x128_S50000x128_0_1 (broadcastInDim S1x128 ![1] bcast_S128_S1x128_1 bb))) (broadcastInDim S50000x128 ![] bcast_S_S50000x128 (constant S_ .f32 0x00000000#32))

/-- Per graph, the sum of the rows of the nodes in it. -/
def pool (b : IVec S50000 32) (h : FVec F S50000x128 .f32) : FVec F S64x128 .f32 :=
  Host.scatterAdd scatter_S64x128_S50000x1_S50000x128_1_0_0_1 (broadcastInDim S64x128 ![] bcast_S_S64x128 (constant S_ .f32 0x00000000#32)) (broadcastInDim S50000x1 ![0] bcast_S50000_S50000x1_0 b) h

/-- Per graph, the number of nodes in it. -/
def count (b : IVec S50000 32) : FVec F S64x1 .f32 :=
  Host.scatterAdd scatter_S64x1_S50000x1_S50000x1_1_0_0_1 (broadcastInDim S64x1 ![] bcast_S_S64x1 (constant S_ .f32 0x00000000#32)) (broadcastInDim S50000x1 ![0] bcast_S50000_S50000x1_0 b) (broadcastInDim S50000x1 ![] bcast_S_S50000x1 (constant S_ .f32 0x3F800000#32))

/-- The mean over each graph, the last linear layer and the logistic function. -/
def tail (S : FVec F S64x128 .f32) (C : FVec F S64x1 .f32) (Wfc : FVec F S128x10 .f32) (bfc : FVec F S10 .f32) : FVec F S64x10 .f32 :=
  Host.divf (broadcastInDim S64x10 ![] bcast_S_S64x10 (constant S_ .f32 0x3F800000#32)) (addf (broadcastInDim S64x10 ![] bcast_S_S64x10 (constant S_ .f32 0x3F800000#32)) (Host.exp (Host.negf (addf (Host.dotGeneral dot_S64x128_S128x10_S64x10_1_0_0_1_n_n none (Host.divf S (broadcastInDim S64x128 ![0, 1] bcast_S64x1_S64x128_0_1 (maximumf C (broadcastInDim S64x1 ![] bcast_S_S64x1 (constant S_ .f32 0x3F800000#32))))) Wfc) (broadcastInDim S64x10 ![0, 1] bcast_S1x10_S64x10_0_1 (broadcastInDim S1x10 ![1] bcast_S10_S1x10_1 bfc))))))

/-- The whole network from its thirteen inputs. -/
def net (x : FVec F S50000x128 .f32) (E : IVec S2x800000 32) (b : IVec S50000 32)
    (W1a : FVec F S128x128 .f32) (b1a : FVec F S128 .f32) (W1b : FVec F S128x128 .f32) (b1b : FVec F S128 .f32)
    (W2a : FVec F S128x128 .f32) (b2a : FVec F S128 .f32) (W2b : FVec F S128x128 .f32) (b2b : FVec F S128 .f32)
    (Wfc : FVec F S128x10 .f32) (bfc : FVec F S10 .f32) : FVec F S64x10 .f32 :=
  tail (pool b (mlp (mlp x (agg E x) W1a b1a W1b b1b) (agg E (mlp x (agg E x) W1a b1a W1b b1b)) W2a b2a W2b b2b)) (count b) Wfc bfc

/-- The reference's result is the network of its arguments. -/
theorem res_eq (m : (ℓ : Loc nD τ sig) → Buf (Elt F) ℓ) (c : Dev nD) :
    Cert.ReferenceIdeal.Value.res_main_v66 m c
      = net (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) := by
  unfold Cert.ReferenceIdeal.Value.res_main_v66 net tail pool count mlp agg srcIdx dstIdx
  rfl

end Cert.Chain

end
-- ==== Proof.Spec.lean ====
/-
  What the two programs compute, entry by entry, over the extended reals.

  A node's features pass twice through a two-layer perceptron with a rectifier after each layer; the 50000 nodes
  are then pooled into 64 graphs by the graph number each node carries. The pooling is written two ways: as one sum
  over all nodes of the entries whose graph number is g, and as ten sums over tiles of 5000 nodes, each entry
  weighted by 1 when its node's graph number is g and by 0 otherwise. The two agree (proved beside the weights'
  arithmetic): a weight 0 annihilates every extended real, a weight 1 keeps it, and the ten tiles partition the nodes.
-/
import Idealize.ShloMosaic.PureOps.Ideal
import Idealize.ShloMosaic.Lib.ValueIdx

noncomputable section

open scoped BigOperators

namespace Cert.Spec

open Idealize.ShloMosaic Idealize.ShloMosaic.ValueIdx

/-- One node's perceptron at output feature `q`: `max (Σ_k max (Σ_j a j · Wa (j, k) + ba k) 0 · Wb (k, q) + bb q) 0`. -/
def mlpAt (a : Fin 128 → EReal) (Wa : (⟨2, ![128, 128]⟩ : Shape).Idx → EReal) (ba : (⟨1, ![128]⟩ : Shape).Idx → EReal)
    (Wb : (⟨2, ![128, 128]⟩ : Shape).Idx → EReal) (bb : (⟨1, ![128]⟩ : Shape).Idx → EReal) (q : Fin 128) : EReal :=
  max ((∑ k : Fin 128, max ((∑ j : Fin 128, a j * Wa (ix2 j k)) + ba (ix1 k)) 0 * Wb (ix2 k q)) + bb (ix1 q)) 0

/-- The perceptron of node `r`, whose input is the node's own features plus its neighbours' aggregate. -/
def mlpRow {N : Nat} (x agg : (⟨2, ![N, 128]⟩ : Shape).Idx → EReal) (Wa : (⟨2, ![128, 128]⟩ : Shape).Idx → EReal)
    (ba : (⟨1, ![128]⟩ : Shape).Idx → EReal) (Wb : (⟨2, ![128, 128]⟩ : Shape).Idx → EReal)
    (bb : (⟨1, ![128]⟩ : Shape).Idx → EReal) (r : Fin N) (q : Fin 128) : EReal :=
  mlpAt (fun j => x (ix2 r j) + agg (ix2 r j)) Wa ba Wb bb q

/-- Node `p` of tile `t`: the tiles are consecutive runs of 5000 nodes. -/
def node (t : Fin 10) (p : Fin 5000) : Fin 50000 := ⟨5000 * t.val + p.val, by omega⟩

/-- The weight of a node whose graph number is the word `b` in graph `g`'s sum: 1 when the word, read signed, is `g`. -/
def hit (b : BitVec 32) (g : Fin 64) : EReal := if b.toInt = (g.val : ℤ) then 1 else 0

/-- Tile `t`'s weighted sum for graph `g`. -/
def tileSum (f : Fin 50000 → EReal) (b : Fin 50000 → BitVec 32) (t : Fin 10) (g : Fin 64) : EReal :=
  ∑ p : Fin 5000, hit (b (node t p)) g * f (node t p)

/-- Graph `g`'s sum over all nodes: the entries of the nodes numbered `g`. -/
def segSum (f : Fin 50000 → EReal) (b : Fin 50000 → BitVec 32) (g : Fin 64) : EReal :=
  ∑ r : Fin 50000, if (b r).toInt = (g.val : ℤ) then f r else 0

end Cert.Spec

end
-- ==== Proof.LibDot.lean ====
/-
  The product of an N × K matrix by a K × M matrix, read at an index.

  A product whose dimension numbers contract axis 1 of the left operand with axis 0 of the right and carry no batch
  axis has, at (n, j), the value Σ_κ l (n, κ) · r (κ, j). Stated for any dimension-numbers record whose lists have
  those values, generically in the sizes and the operands' formats, at the ideal values (a float is an extended
  real): for the host product, for the accumulating block product, and for the bare sum over the record's
  contraction index that both reduce to.
-/
import Idealize.ShloMosaic.PureOps.Ideal
import Idealize.ShloMosaic.PureOps.Ideal.Laws
import Idealize.ShloMosaic.Lib.ValueIdx
import Idealize.ShloMosaic.Lib.StackMember

noncomputable section

open scoped BigOperators

namespace Cert.LibDot

open Idealize.ShloMosaic Idealize.ShloMosaic.ValueIdx

/-- A product record of an N × K by a K × M matrix whose lists are those of the plain product (contract axis 1 of the
    left with axis 0 of the right, no batch axis) is the plain product's record: the lists agree and the
    well-formedness is a proposition. -/
theorem dot_eq_plain {N K M : Nat} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = []) :
    d = DotDims.plain N K M := by
  cases d
  simp only at hlc hrc hln hrn hlb hrb
  subst hlc hrc hln hrn hlb hrb
  rfl

/-- THE CONTRACTION'S SUM AT (n, j): over the record's contraction index, the left operand read at its left index
    times the right operand read at its right index, is the sum over κ of l (n, κ) · r (κ, j). -/
theorem contr_sum_rows {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![N, K]⟩ φ₁) (r : FVec Ideal ⟨2, ![K, M]⟩ φ₂) (n : Fin N) (j : Fin M) :
    ∑ k : d.contr.Idx, l (d.lhsIdx (ix2 n j) k) * r (d.rhsIdx (ix2 n j) k) = ∑ κ : Fin K, l (ix2 n κ) * r (ix2 κ j) := by
  rw [dot_eq_plain d hlc hrc hln hrn hlb hrb]
  exact (Ideal.dotGeneral_apply (DotDims.plain N K M) none .single l r (ix2 n j)).symm.trans
    (StackMember.dotGeneral_plain_apply none l r n j)

/-- THE HOST MATRIX PRODUCT READ AT (n, j): Σ_κ l (n, κ) · r (κ, j). -/
theorem dot_rows_apply {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![N, K]⟩ φ₁) (r : FVec Ideal ⟨2, ![K, M]⟩ φ₂) (n : Fin N) (j : Fin M) :
    Host.dotGeneral (F := Ideal) d prec l r (ix2 n j) = ∑ κ : Fin K, l (ix2 n κ) * r (ix2 κ j) := by
  show FloatOps.dotGeneral d prec .single l r (ix2 n j) = _
  rw [Ideal.dotGeneral_apply]
  exact contr_sum_rows d hlc hrc hln hrn hlb hrb l r n j

/-- THE ACCUMULATING BLOCK PRODUCT READ AT (n, j): the accumulator's entry plus Σ_κ l (n, κ) · r (κ, j). -/
theorem matmul_rows_apply {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![N, K]⟩ φ₁) (r : FVec Ideal ⟨2, ![K, M]⟩ φ₂) (acc : FVec Ideal ⟨2, ![N, M]⟩ .f32)
    (n : Fin N) (j : Fin M) :
    FloatOps.matmul d prec l r acc (ix2 n j) = acc (ix2 n j) + ∑ κ : Fin K, l (ix2 n κ) * r (ix2 κ j) := by
  rw [Ideal.matmul_apply]
  exact congrArg (acc (ix2 n j) + ·) (contr_sum_rows d hlc hrc hln hrn hlb hrb l r n j)

end Cert.LibDot

end
-- ==== Proof.LibDotCols.lean ====
/-
  The product of the transpose of a K × G matrix by a K × M matrix, read at an index.

  A product whose dimension numbers contract axis 0 of the left operand with axis 0 of the right and carry no batch
  axis has, at (g, j), the accumulator's entry plus Σ_κ l (κ, g) · r (κ, j).
-/
import Idealize.ShloMosaic.PureOps.Ideal
import Idealize.ShloMosaic.PureOps.Ideal.Laws
import Idealize.ShloMosaic.Lib.ValueIdx

noncomputable section

open scoped BigOperators

namespace Cert.LibDotCols

open Idealize.ShloMosaic Idealize.ShloMosaic.ValueIdx

/-- THE ACCUMULATING BLOCK PRODUCT, CONTRACTED OVER THE ROWS OF BOTH OPERANDS, READ AT (g, j): the accumulator's entry
    plus Σ_κ l (κ, g) · r (κ, j). -/
theorem matmul_cols_apply {K G M : Nat} {φ₁ φ₂ : FTy} (d : DotDims ⟨2, ![K, G]⟩ ⟨2, ![K, M]⟩ ⟨2, ![G, M]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision)
    (l : FVec Ideal ⟨2, ![K, G]⟩ φ₁) (r : FVec Ideal ⟨2, ![K, M]⟩ φ₂) (acc : FVec Ideal ⟨2, ![G, M]⟩ .f32)
    (g : Fin G) (j : Fin M) :
    FloatOps.matmul d prec l r acc (ix2 g j) = acc (ix2 g j) + ∑ κ : Fin K, l (ix2 κ g) * r (ix2 κ j) := by
  cases d with
  | mk lc rc ln rn lb rb wf =>
  simp only at hlc hrc hln hrn hlb hrb
  subst hlc hrc hln hrn hlb hrb
  rw [Ideal.matmul_apply,
    ← Equiv.sum_comp (contrEquiv1 (⟨[0], [0], [1], [1], [], [], wf⟩ : DotDims ⟨2, ![K, G]⟩ ⟨2, ![K, M]⟩ ⟨2, ![G, M]⟩) K rfl rfl).symm]
  refine congrArg (acc (ix2 g j) + ·) (Finset.sum_congr rfl fun κ _ => ?_)
  have c2 := contrEquiv1_symm_val
    (⟨[0], [0], [1], [1], [], [], wf⟩ : DotDims ⟨2, ![K, G]⟩ ⟨2, ![K, M]⟩ ⟨2, ![G, M]⟩) K rfl rfl κ
  have l2 : (⟨[0], [0], [1], [1], [], [], wf⟩ : DotDims ⟨2, ![K, G]⟩ ⟨2, ![K, M]⟩ ⟨2, ![G, M]⟩).lhsIdx (ix2 g j)
      ((contrEquiv1 _ K rfl rfl).symm κ) = ix2 κ g := by
    funext ax; apply Fin.ext
    match ax with
    | ⟨0, _⟩ => simp [DotDims.lhsIdx]; exact c2
    | ⟨1, _⟩ => simp [DotDims.lhsIdx]; rfl
  have r2 : (⟨[0], [0], [1], [1], [], [], wf⟩ : DotDims ⟨2, ![K, G]⟩ ⟨2, ![K, M]⟩ ⟨2, ![G, M]⟩).rhsIdx (ix2 g j)
      ((contrEquiv1 _ K rfl rfl).symm κ) = ix2 κ j := by
    funext ax; apply Fin.ext
    match ax with
    | ⟨0, _⟩ => simp [DotDims.rhsIdx]; exact c2
    | ⟨1, _⟩ => simp [DotDims.rhsIdx]; rfl
  rw [l2, r2]

end Cert.LibDotCols

end
-- ==== Proof.PoolMath.lean ====
/-
  The pooling, tile by tile, is the pooling over all nodes; and the weight a tile gives a node.
-/
import proofs.«403606_j52819507806389_3_alg».proof.Proof.Spec
import Idealize.ShloMosaic.PureOps.Ideal.Laws

noncomputable section

open scoped BigOperators

namespace Cert.PoolMath

open Idealize.ShloMosaic Idealize.ShloMosaic.ValueIdx Cert.Spec

/-- The numbering of the nodes by tile and place, (t, p) ↦ 5000 t + p, as a bijection from tiles × places onto the
    nodes; its inverse is division with remainder by 5000. -/
def nodeEquiv : Fin 10 × Fin 5000 ≃ Fin 50000 where
  toFun tp := node tp.1 tp.2
  invFun r := (⟨r.val / 5000, by have := r.isLt; omega⟩, ⟨r.val % 5000, Nat.mod_lt _ (by omega)⟩)
  left_inv tp := by
    obtain ⟨t, p⟩ := tp
    have ht := t.isLt
    have hp := p.isLt
    apply Prod.ext <;> apply Fin.ext <;> simp only [node] <;> omega
  right_inv r := by
    apply Fin.ext
    simp only [node]
    omega

/-- A sum over the tiles of the sums over a tile's places is the sum over the nodes. -/
theorem sum_tiles (F : Fin 50000 → EReal) : ∑ t : Fin 10, ∑ p : Fin 5000, F (node t p) = ∑ r : Fin 50000, F r := by
  rw [← Equiv.sum_comp nodeEquiv F, Fintype.sum_prod_type]
  rfl

/-- A weight times an entry is the entry when the word read signed is g and 0 otherwise: 1 · x = x and 0 · x = 0 for
    every extended real x. -/
theorem hit_mul (a : BitVec 32) (g : Fin 64) (x : EReal) :
    hit a g * x = if a.toInt = (g.val : ℤ) then x else 0 := by
  unfold hit
  split
  · exact one_mul x
  · exact zero_mul x

/-- The ten tiles' weighted sums for graph g add up to the sum over the nodes numbered g: a weight 0 annihilates its
    entry (0 · x = 0 for every extended real x), a weight 1 keeps it, and (t, p) ↦ 5000 t + p is a bijection from
    tiles × places onto the nodes. -/
theorem tiles_segSum (f : Fin 50000 → EReal) (b : Fin 50000 → BitVec 32) (g : Fin 64) :
    ∑ t : Fin 10, tileSum f b t g = segSum f b g := by
  unfold tileSum segSum
  simp only [hit_mul]
  exact sum_tiles fun r => if (b r).toInt = (g.val : ℤ) then f r else 0

/-- A 32-bit word is g's word exactly when, read signed, it is g: g < 64 lies below 2^31. -/
theorem eq_ofNat_iff (a : BitVec 32) (g : Fin 64) : a = BitVec.ofNat 32 g.val ↔ a.toInt = (g.val : ℤ) := by
  have hg := g.isLt
  have e : (BitVec.ofNat 32 g.val).toInt = (g.val : ℤ) := by
    have hm : g.val % 2 ^ 32 = g.val := Nat.mod_eq_of_lt (by omega)
    rw [BitVec.toInt_eq_toNat_cond, BitVec.toNat_ofNat, hm]
    split <;> omega
  constructor
  · intro h; rw [h, e]
  · intro h; exact BitVec.eq_of_toInt_eq (h.trans e.symm)

/-- The weight the kernel computes: the word compared for equality with g's 32-bit word, the one-bit answer widened
    unsigned to 32 bits and converted to a float, is 1 when the word read signed is g and 0 otherwise. -/
theorem onehot_eq_hit (a : BitVec 32) (g : Fin 64) :
    FloatOps.sitofp (F := Ideal) .f32 ((IntOp.cmpi .eq a (BitVec.ofNat 32 g.val)).setWidth 32) = hit a g := by
  show (((((IntOp.cmpi .eq a (BitVec.ofNat 32 g.val)).setWidth 32).toInt : ℝ)) : EReal) = hit a g
  unfold hit IntOp.cmpi
  by_cases h : a = BitVec.ofNat 32 g.val
  · have h' := (eq_ofNat_iff a g).mp h
    rw [if_pos h']
    have : (a == BitVec.ofNat 32 g.val) = true := by simp [h]
    simp only [this]
    have : ((BitVec.ofBool true).setWidth 32).toInt = 1 := by decide
    rw [this]; simp
  · have h' : ¬ a.toInt = (g.val : ℤ) := fun hh => h ((eq_ofNat_iff a g).mpr hh)
    rw [if_neg h']
    have : (a == BitVec.ofNat 32 g.val) = false := by simp [h]
    simp only [this]
    have : ((BitVec.ofBool false).setWidth 32).toInt = 0 := by decide
    rw [this]; simp

end Cert.PoolMath

end
-- ==== Proof.Payloads.lean ====
/-
  The kernels' arithmetic, entry by entry.

  The first kernel's block of 5000 nodes: entry (p, q) of what it stores is the perceptron of node p at feature q.
  The second kernel's block: entry (g, d) of its pooled sums is the sum over the block's nodes p of the weight of p in
  graph g times the perceptron of node p at feature d, and entry (g, 0) of its counts is the sum of the weights. A
  change of float format is the identity on the extended reals, so the narrowings before each product leave nothing.
-/
import proofs.«403606_j52819507806389_3_alg».proof.Proof.Gen.KernelIdeal.Skeleton
import proofs.«403606_j52819507806389_3_alg».proof.Proof.Spec
import proofs.«403606_j52819507806389_3_alg».proof.Proof.LibDot
import proofs.«403606_j52819507806389_3_alg».proof.Proof.LibDotCols
import proofs.«403606_j52819507806389_3_alg».proof.Proof.PoolMath
import Idealize.ShloMosaic.Lib.Pipeline.Value
import Idealize.ShloMosaic.Lib.ValueLayout

noncomputable section

open scoped BigOperators

namespace Cert.Payloads

open Idealize.ShloMosaic Idealize.ShloMosaic.ValueIdx Cert.KernelIdeal Cert.KernelIdeal.Gen Cert.Spec

/-- A bias of 128 entries laid as one row and repeated down the 5000 rows reads, at (p, k), its entry k. -/
theorem bias_apply (b : Vec Ideal S128 .f32) (p : Fin 5000) (k : Fin 128) :
    broadcastTo S5000x128 (shapeCast S1x128 b shapeCasts_S128_S1x128) broadcasts_S1x128_S5000x128 (ix2 p k) = b (ix1 k) :=
  (broadcastTo_1b_ab_apply _ broadcasts_S1x128_S5000x128 p k).trans (shapeCast_a_1a_apply b shapeCasts_S128_S1x128 0 k)

/-- One rectified layer over a block of 5000 rows: the rows times the weights into a zero accumulator, plus the bias on
    every row, and the maximum with zero. -/
def layer (h : FVec Ideal S5000x128 .f32) (W : Vec Ideal S128x128 .bf16) (b : Vec Ideal S128 .f32) :
    FVec Ideal S5000x128 .f32 :=
  maximumf
    (addf
      (matmul dot_S5000x128_S128x128_S5000x128_1_0_0_1_n_n none (truncf .bf16 h bitsLt_bf16_f32)
        (shapeCast S128x128 W shapeCasts_S128x128_S128x128 : FVec Ideal S128x128 .bf16) (constant S5000x128 .f32 0x00000000#32))
      (broadcastTo S5000x128 (shapeCast S1x128 b shapeCasts_S128_S1x128) broadcasts_S1x128_S5000x128))
    (broadcast S5000x128 (Scalar.ofBits .f32 0x00000000#32))

/-- The layer at (p, k): max (Σ_j h (p, j) · W (j, k) + b k) 0. The narrowing of the rows is the identity, the cast of
    the weights to their own shape is the identity, and the accumulator and the rectifier's floor are the real 0. -/
theorem layer_apply (h : FVec Ideal S5000x128 .f32) (W : Vec Ideal S128x128 .bf16) (b : Vec Ideal S128 .f32)
    (p : Fin 5000) (k : Fin 128) :
    layer h W b (ix2 p k) = max ((∑ j : Fin 128, h (ix2 p j) * W (ix2 j k)) + b (ix1 k)) 0 := by
  unfold layer
  rw [maximumf_apply, addf_apply, bias_apply, broadcast_apply]
  have hm : matmul dot_S5000x128_S128x128_S5000x128_1_0_0_1_n_n none (truncf .bf16 h bitsLt_bf16_f32)
        (shapeCast S128x128 W shapeCasts_S128x128_S128x128 : FVec Ideal S128x128 .bf16)
        (constant S5000x128 .f32 0x00000000#32) (ix2 p k) = ∑ j : Fin 128, h (ix2 p j) * W (ix2 j k) := by
    refine (Cert.LibDot.matmul_rows_apply dot_S5000x128_S128x128_S5000x128_1_0_0_1_n_n rfl rfl rfl rfl rfl rfl none
      _ _ _ p k).trans ?_
    rw [constant_apply, Ideal.ofBits_zero_f32, zero_add, shapeCast_self]
    rfl
  rw [hm]
  show max _ (Ideal.ofBits .f32 0x00000000#32) = _
  rw [Ideal.ofBits_zero_f32]

/-- Two layers over the rows x + agg are, at (p, q), the perceptron of node p at feature q. -/
theorem mlp_apply (x agg : FVec Ideal S5000x128 .f32) (Wa : Vec Ideal S128x128 .bf16) (ba : Vec Ideal S128 .f32)
    (Wb : Vec Ideal S128x128 .bf16) (bb : Vec Ideal S128 .f32) (p : Fin 5000) (q : Fin 128) :
    layer (layer (addf x agg) Wa ba) Wb bb (ix2 p q) = mlpRow x agg Wa ba Wb bb p q := by
  rw [layer_apply]
  simp only [layer_apply, addf_apply]
  rfl

/-- The first kernel's stored block at (p, q): node p's perceptron at feature q. -/
theorem k0_pay1_apply (v0 v1 : Vec Ideal S5000x128 .f32) (v5 : Vec Ideal S128x128 .bf16) (v8 : Vec Ideal S128 .f32)
    (v15 : Vec Ideal S128x128 .bf16) (v18 : Vec Ideal S128 .f32) (p : Fin 5000) (q : Fin 128) :
    k0_pay1 (F := Ideal) v0 v1 v5 v8 v15 v18 (ix2 p q) = mlpRow v0 v1 v5 v8 v15 v18 p q := by
  have e : k0_pay1 (F := Ideal) v0 v1 v5 v8 v15 v18
      = layer (layer (addf v0 (shapeCast S5000x128 v1 shapeCasts_S5000x128_S5000x128)) v5 v8) v15 v18 := rfl
  rw [e, shapeCast_self]
  exact mlp_apply v0 v1 v5 v8 v15 v18 p q

/-- A column of a entries repeated along b columns reads, at (p, c), its entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The weights of the second kernel at (p, g): node p's graph number compared with g, the bit widened and read as a
    real, is the weight of node p in graph g. -/
theorem k1_pay3_apply (v25 : Vec Ideal S5000x1 .i32) (p : Fin 5000) (g : Fin 64) :
    k1_pay3 (F := Ideal) v25 (ix2 p g) = hit (v25 (ix2 p (0 : Fin 1))) g := by
  have hA : broadcastTo S5000x64 (shapeCast S5000x1 v25 shapeCasts_S5000x1_S5000x1 : IVec S5000x1 32)
      broadcasts_S5000x1_S5000x64 (ix2 p g) = v25 (ix2 p (0 : Fin 1)) := by
    rw [shapeCast_self]
    exact broadcastTo_a1_ab_apply v25 broadcasts_S5000x1_S5000x64 p g
  have hB : broadcastTo S5000x64 (iota .tc S1x64 32 [1] iota_S1x64_d1_w32) broadcasts_S1x64_S5000x64 (ix2 p g)
      = BitVec.ofNat 32 g.val :=
    (broadcastTo_1b_ab_apply _ broadcasts_S1x64_S5000x64 p g).trans
      (iota_single_apply .tc S1x64 32 1 iota_S1x64_d1_w32 (ix2 (0 : Fin 1) g))
  refine Eq.trans ?_ (Cert.PoolMath.onehot_eq_hit (v25 (ix2 p (0 : Fin 1))) g)
  rw [← hA, ← hB]
  rfl

/-- The second kernel's pooled sums at (g, d): Σ_p weight(p, g) · perceptron(p, d). -/
theorem k1_pay4_apply (v0 v2 : Vec Ideal S5000x128 .f32) (v6 : Vec Ideal S128x128 .bf16) (v9 : Vec Ideal S128 .f32)
    (v16 : Vec Ideal S128x128 .bf16) (v19 : Vec Ideal S128 .f32) (v25 : Vec Ideal S5000x1 .i32) (g : Fin 64) (d : Fin 128) :
    k1_pay4 (F := Ideal) v0 v2 v6 v9 v16 v19 v25 (ix2 g d)
      = ∑ p : Fin 5000, hit (v25 (ix2 p (0 : Fin 1))) g * mlpRow v0 v2 v6 v9 v16 v19 p d := by
  have e : k1_pay4 (F := Ideal) v0 v2 v6 v9 v16 v19 v25
      = matmul dot_S5000x64_S5000x128_S64x128_0_0_1_1_n_n none (k1_pay3 v25)
          (truncf .bf16 (layer (layer (addf (shapeCast S5000x128 v0 shapeCasts_S5000x128_S5000x128)
            (shapeCast S5000x128 v2 shapeCasts_S5000x128_S5000x128)) v6 v9) v16 v19) bitsLt_bf16_f32)
          (constant S64x128 .f32 0x00000000#32) := rfl
  rw [e, shapeCast_self, shapeCast_self]
  refine (Cert.LibDotCols.matmul_cols_apply dot_S5000x64_S5000x128_S64x128_0_0_1_1_n_n rfl rfl rfl rfl rfl rfl none
    _ _ _ g d).trans ?_
  rw [constant_apply, Ideal.ofBits_zero_f32, zero_add]
  refine Finset.sum_congr rfl fun p _ => ?_
  rw [k1_pay3_apply, truncf_apply, mlp_apply]

/-- The bf16 word 0x3F80 is the real 1. -/
theorem ofBits_one_bf16 : Ideal.ofBits .bf16 0x3F80#16 = 1 := by
  simp [Ideal.ofBits, Ideal.ieee, -EReal.coe_mul]; norm_num

/-- The second kernel's counts at (g, 0): the sum of the weights. -/
theorem k1_pay5_apply (v25 : Vec Ideal S5000x1 .i32) (g : Fin 64) :
    k1_pay5 (F := Ideal) v25 (ix2 g (0 : Fin 1)) = ∑ p : Fin 5000, hit (v25 (ix2 p (0 : Fin 1))) g * 1 := by
  have e : k1_pay5 (F := Ideal) v25
      = matmul dot_S5000x64_S5000x1_S64x1_0_0_1_1_n_n none (k1_pay3 v25)
          (broadcast S5000x1 (Scalar.ofBits .bf16 0x3F80#16) : FVec Ideal S5000x1 .bf16)
          (constant S64x1 .f32 0x00000000#32) := rfl
  rw [e]
  refine (Cert.LibDotCols.matmul_cols_apply dot_S5000x64_S5000x1_S64x1_0_0_1_1_n_n rfl rfl rfl rfl rfl rfl none
    _ _ _ g (0 : Fin 1)).trans ?_
  rw [constant_apply, Ideal.ofBits_zero_f32, zero_add]
  refine Finset.sum_congr rfl fun p _ => ?_
  rw [k1_pay3_apply, broadcast_apply]
  exact congrArg (hit (v25 (ix2 p (0 : Fin 1))) g * ·) ofBits_one_bf16

/-- The sums stored as a one-tile slab: entry (0, g, d) is entry (g, d). -/
theorem k1_pay1_apply (v35 : FVec Ideal S64x128 .f32) (g : Fin 64) (d : Fin 128) :
    k1_pay1 (F := Ideal) v35 (ix3 (0 : Fin 1) g d) = v35 (ix2 g d) :=
  shapeCast_ab_1ab_apply v35 shapeCasts_S64x128_S1x64x128 0 g d

/-- The counts stored as a one-tile slab: entry (0, g, 0) is entry (g, 0). -/
theorem k1_pay2_apply (v37 : FVec Ideal S64x1 .f32) (g : Fin 64) :
    k1_pay2 (F := Ideal) v37 (ix3 (0 : Fin 1) g (0 : Fin 1)) = v37 (ix2 g (0 : Fin 1)) :=
  shapeCast_ab_1ab_apply v37 shapeCasts_S64x1_S1x64x1 0 g 0

end Cert.Payloads

end
-- ==== Proof.LibScatterRows.lean ====
/-
  A scatter-add of rows, read at an entry.

  The operand is a G × M matrix, the updates an N × M matrix, and row r of the updates is added into the row of the
  operand whose number is the r-th scatter index (an N × 1 column of words, read signed). A row whose index is
  negative or at least G lands nowhere and is dropped. So entry (g, j) of the result is the operand's entry plus the sum,
  over the rows r whose index is g, of the update's entry (r, j).
-/
import Idealize.ShloMosaic.PureOps.Ideal
import Idealize.ShloMosaic.PureOps.Ideal.Laws
import Idealize.ShloMosaic.Lib.ValueIdx

noncomputable section

open scoped BigOperators

namespace Cert.LibScatterRows

open Idealize.ShloMosaic Idealize.ShloMosaic.ValueIdx

/-- For any scatter dimension numbers: an update index k lands at the operand index i exactly when, on every operand
    axis, the window's start plus k's window coordinate is i's coordinate. (When all these sums are inside the operand
    the landing index is their tuple; when one is not, k lands nowhere, and then no i has those coordinates, i's
    being inside.) -/
theorem resultIdx_eq_some_iff {w : Nat} {s si u : Shape} (d : ScatterDims s si u) (k : u.Idx) (idx : IVec si w)
    (i : s.Idx) :
    d.resultIdx? k idx = some i ↔ ∀ a, d.start k idx a + (d.window k a : ℕ) = ((i a).val : ℤ) := by
  unfold ScatterDims.resultIdx?
  split
  · rename_i h
    rw [Option.some.injEq]
    constructor
    · intro hf a
      have ha : (d.start k idx a + (d.window k a : ℕ)).toNat = (i a).val := congrArg Fin.val (congrFun hf a)
      have := (h a).1
      omega
    · intro hall
      funext a
      apply Fin.ext
      show (d.start k idx a + (d.window k a : ℕ)).toNat = (i a).val
      rw [hall a]
      omega
  · rename_i h
    constructor
    · intro hf; cases hf
    · intro hall
      exfalso; apply h
      intro a
      rw [hall a]
      have := (i a).isLt
      constructor <;> omega

section Rows

variable {G N M w : Nat}

/-! The row scatter's dimension numbers: the updates' axis 1 is the window axis and goes to the operand's axis 1; the
    operand's axis 0 is inserted, and the one component of a start index (read along axis 1 of the N × 1 index
    column) is a position on it. -/

/-- The update index (r, c) reads its start index's component at (r, 0) of the index column: its coordinate on the
    updates' scatter axis 0, and the component's number 0 on the index vector's axis 1. -/
theorem siIdx0 (wf) (r : Fin N) (c : Fin M) (k) :
    (⟨[1], [0], [0], 1, wf⟩ : ScatterDims ⟨2, ![G, M]⟩ ⟨2, ![N, 1]⟩ ⟨2, ![N, M]⟩).siIdx (ix2 r c) k
      = ix2 r (0 : Fin 1) := by
  funext b
  match b with
  | ⟨0, _⟩ =>
    apply Fin.ext
    rfl
  | ⟨1, _⟩ =>
    apply Fin.ext
    have := k.isLt
    show k.val = 0
    simp only [List.length_singleton] at this
    omega

/-- On operand axis 0 the window of update (r, c) starts at the r-th scatter index, read signed. -/
theorem start0 (wf) (idx : IVec ⟨2, ![N, 1]⟩ w) (r : Fin N) (c : Fin M) :
    (⟨[1], [0], [0], 1, wf⟩ : ScatterDims ⟨2, ![G, M]⟩ ⟨2, ![N, 1]⟩ ⟨2, ![N, M]⟩).start (ix2 r c) idx 0
      = (idx (ix2 r (0 : Fin 1))).toInt := by
  unfold ScatterDims.start
  rw [dif_pos (List.mem_singleton.2 rfl)]
  rw [siIdx0]

/-- On operand axis 1, which no start index names, the window starts at 0. -/
theorem start1 (wf) (idx : IVec ⟨2, ![N, 1]⟩ w) (r : Fin N) (c : Fin M) :
    (⟨[1], [0], [0], 1, wf⟩ : ScatterDims ⟨2, ![G, M]⟩ ⟨2, ![N, 1]⟩ ⟨2, ![N, M]⟩).start (ix2 r c) idx 1 = 0 := by
  unfold ScatterDims.start
  rw [dif_neg (fun h => absurd (List.mem_singleton.1 h) (show (1 : Fin 2) ≠ 0 by decide))]

/-- The inserted axis 0 has window coordinate 0. -/
theorem window0 (wf) (r : Fin N) (c : Fin M) :
    (⟨[1], [0], [0], 1, wf⟩ : ScatterDims ⟨2, ![G, M]⟩ ⟨2, ![N, 1]⟩ ⟨2, ![N, M]⟩).window (ix2 r c) 0 = 0 := by
  rfl

/-- On operand axis 1 the window coordinate of update (r, c) is c. -/
theorem window1 (wf) (r : Fin N) (c : Fin M) :
    (⟨[1], [0], [0], 1, wf⟩ : ScatterDims ⟨2, ![G, M]⟩ ⟨2, ![N, 1]⟩ ⟨2, ![N, M]⟩).window (ix2 r c) 1 = c.val := by
  rfl

/-- Update (r, c) lands at (g, j) exactly when the r-th scatter index, read signed, is g and c = j. -/
theorem resultIdx_iff (wf) (idx : IVec ⟨2, ![N, 1]⟩ w) (r : Fin N) (c : Fin M) (g : Fin G) (j : Fin M) :
    (⟨[1], [0], [0], 1, wf⟩ : ScatterDims ⟨2, ![G, M]⟩ ⟨2, ![N, 1]⟩ ⟨2, ![N, M]⟩).resultIdx? (ix2 r c) idx
        = some (ix2 g j)
      ↔ (idx (ix2 r (0 : Fin 1))).toInt = (g.val : ℤ) ∧ c = j := by
  rw [resultIdx_eq_some_iff]
  refine (Fin.forall_fin_two (p := fun a => _ = _)).trans ?_
  rw [start0, window0, start1, window1]
  show _ + _ = (g.val : ℤ) ∧ _ + _ = (j.val : ℤ) ↔ _
  constructor
  · rintro ⟨h0, h1⟩
    exact ⟨by omega, Fin.ext (by omega)⟩
  · rintro ⟨h0, rfl⟩
    exact ⟨by omega, by omega⟩

end Rows

/-- THE ROW SCATTER-ADD READ AT (g, j): the operand's entry plus the sum of the entries (r, j) of the update rows
    whose scatter index, read signed, is g. -/
theorem scatterAdd_rows_apply {G N M w : Nat} {φ : FTy} (d : ScatterDims ⟨2, ![G, M]⟩ ⟨2, ![N, 1]⟩ ⟨2, ![N, M]⟩)
    (huw : d.updateWindowDims = [1]) (hiw : d.insertedWindowDims = [0]) (hsd : d.scatterDimsToOperandDims = [0])
    (hiv : d.indexVectorDim = 1)
    (x : FVec Ideal ⟨2, ![G, M]⟩ φ) (idx : IVec ⟨2, ![N, 1]⟩ w) (upd : FVec Ideal ⟨2, ![N, M]⟩ φ) (g : Fin G) (j : Fin M) :
    Host.scatterAdd (F := Ideal) d x idx upd (ix2 g j)
      = x (ix2 g j) + ∑ r : Fin N, if (idx (ix2 r (0 : Fin 1))).toInt = (g.val : ℤ) then upd (ix2 r j) else 0 := by
  -- the record is the literal one: its four lists are given
  cases d with
  | mk uw iw sd iv wf =>
  simp only at huw hiw hsd hiv
  subst huw hiw hsd hiv
  -- the scatter-add at (g, j) is the operand's entry plus the sum of the updates that land there
  simp only [Host.scatterAdd, Ideal.hostScatterAdd_def, Ideal.hostScatterAdd]
  congr 1
  -- a sum over all updates (r, c), an update counting when it lands at (g, j); row by row
  rw [Finset.sum_filter, sum_idx2]
  refine Finset.sum_congr rfl fun r _ => ?_
  beta_reduce
  by_cases ht : (idx (ix2 r (0 : Fin 1))).toInt = (g.val : ℤ)
  · -- row r goes to row g: of its entries only (r, j) lands at (g, j)
    rw [Finset.sum_eq_single j]
    · rw [if_pos ((resultIdx_iff wf idx r j g j).2 ⟨ht, rfl⟩), if_pos ht]
    · intro c _ hc
      exact if_neg fun h => hc ((resultIdx_iff wf idx r c g j).1 h).2
    · intro h; exact absurd (Finset.mem_univ j) h
  · -- row r goes elsewhere or nowhere: none of its entries lands at (g, j)
    rw [if_neg ht]
    exact Finset.sum_eq_zero fun c _ => if_neg fun h => ht ((resultIdx_iff wf idx r c g j).1 h).1

end Cert.LibScatterRows

end
-- ==== Proof.RefRead.lean ====
/-
  The reference's maps, entry by entry, at the ideal values.

  The perceptron at (r, q) is node r's perceptron at feature q. The pooled sum at (g, d) is the sum of the entries (r, d)
  over the nodes r numbered g; the count at (g, 0) is the number of such nodes, as a sum of ones.
-/
import proofs.«403606_j52819507806389_3_alg».proof.Proof.Chain
import proofs.«403606_j52819507806389_3_alg».proof.Proof.Spec
import proofs.«403606_j52819507806389_3_alg».proof.Proof.LibDot
import proofs.«403606_j52819507806389_3_alg».proof.Proof.LibScatterRows
import Idealize.ShloMosaic.Lib.Pipeline.Value
import Idealize.ShloMosaic.Lib.ValueLayout

noncomputable section

open scoped BigOperators

namespace Cert.RefRead

open Idealize.ShloMosaic Idealize.ShloMosaic.ValueIdx Cert.ReferenceIdeal Cert.ReferenceIdeal.Gen Cert.Spec

/-- The word 0x3F800000 encodes the extended real 1: sign 0, exponent 127 (the bias), fraction 0. -/
theorem ofBits_one_f32 : Ideal.ofBits .f32 0x3F800000#32 = 1 := by
  simp [Ideal.ofBits, Ideal.ieee]
  rw [← EReal.coe_mul]
  norm_num

/-- The zero word broadcast from a scalar reads 0 at every index. -/
theorem zeros_apply {t : Shape} (h : S_.BroadcastsInDim t (![] : Fin 0 → Fin t.rank)) (j : t.Idx) :
    broadcastInDim t ![] h (constant (F := Ideal) S_ .f32 0x00000000#32) j = 0 := by
  rw [broadcastInDim_apply _ h _ j ix0 (fun a => a.elim0)]
  exact Ideal.ofBits_zero_f32

/-- The one word broadcast from a scalar reads 1 at every index. -/
theorem ones_apply {t : Shape} (h : S_.BroadcastsInDim t (![] : Fin 0 → Fin t.rank)) (j : t.Idx) :
    broadcastInDim t ![] h (constant (F := Ideal) S_ .f32 0x3F800000#32) j = 1 := by
  rw [broadcastInDim_apply _ h _ j ix0 (fun a => a.elim0)]
  exact ofBits_one_f32

/-- A bias vector laid along the features and repeated over the nodes reads, at (r, k), the bias of feature k. -/
theorem bias_apply (b : FVec Ideal S128 .f32) (r : Fin 50000) (k : Fin 128) :
    broadcastInDim S50000x128 ![0, 1] bcast_S1x128_S50000x128_0_1
      (broadcastInDim S1x128 ![1] bcast_S128_S1x128_1 b) (ix2 r k) = b (ix1 k) := by
  rw [broadcastInDim_apply _ bcast_S1x128_S50000x128_0_1 _ (ix2 r k) (ix2 (0 : Fin 1) k) (fun a => match a with
    | ⟨0, _⟩ => by show (0 : Nat) = if (1 : Nat) = 1 then 0 else r.val; rw [if_pos rfl]
    | ⟨1, _⟩ => by show k.val = if (128 : Nat) = 1 then 0 else k.val; rw [if_neg (by decide)])]
  exact broadcastInDim_apply _ bcast_S128_S1x128_1 b (ix2 (0 : Fin 1) k) (ix1 k) (fun a => match a with
    | ⟨0, _⟩ => by show k.val = if (128 : Nat) = 1 then 0 else k.val; rw [if_neg (by decide)])

/-- The graph numbers laid out as a column read, at (r, 0), node r's graph number. -/
theorem col_apply (b : IVec S50000 32) (r : Fin 50000) :
    broadcastInDim S50000x1 ![0] bcast_S50000_S50000x1_0 b (ix2 r (0 : Fin 1)) = b (ix1 r) :=
  broadcastInDim_apply _ bcast_S50000_S50000x1_0 b (ix2 r (0 : Fin 1)) (ix1 r) (fun a => match a with
    | ⟨0, _⟩ => by show r.val = if (50000 : Nat) = 1 then 0 else r.val; rw [if_neg (by decide)])

/-- One layer at (r, k): the row r of the input against column k of the weights, plus the bias, rectified. -/
theorem layer_apply (u : FVec Ideal S50000x128 .f32) (W : FVec Ideal S128x128 .f32) (b : FVec Ideal S128 .f32)
    (r : Fin 50000) (k : Fin 128) :
    maximumf (addf (Host.dotGeneral dot_S50000x128_S128x128_S50000x128_1_0_0_1_n_n none u W)
        (broadcastInDim S50000x128 ![0, 1] bcast_S1x128_S50000x128_0_1 (broadcastInDim S1x128 ![1] bcast_S128_S1x128_1 b)))
      (broadcastInDim S50000x128 ![] bcast_S_S50000x128 (constant S_ .f32 0x00000000#32)) (ix2 r k)
      = max ((∑ j : Fin 128, u (ix2 r j) * W (ix2 j k)) + b (ix1 k)) 0 := by
  show max (Host.dotGeneral (F := Ideal) dot_S50000x128_S128x128_S50000x128_1_0_0_1_n_n none u W (ix2 r k)
      + broadcastInDim S50000x128 ![0, 1] bcast_S1x128_S50000x128_0_1 (broadcastInDim S1x128 ![1] bcast_S128_S1x128_1 b) (ix2 r k))
    (broadcastInDim S50000x128 ![] bcast_S_S50000x128 (constant (F := Ideal) S_ .f32 0x00000000#32) (ix2 r k)) = _
  rw [bias_apply, zeros_apply,
    Cert.LibDot.dot_rows_apply dot_S50000x128_S128x128_S50000x128_1_0_0_1_n_n rfl rfl rfl rfl rfl rfl]

/-- The reference's perceptron at (r, q). -/
theorem mlp_apply (x a : FVec Ideal S50000x128 .f32) (Wa : FVec Ideal S128x128 .f32) (ba : FVec Ideal S128 .f32)
    (Wb : FVec Ideal S128x128 .f32) (bb : FVec Ideal S128 .f32) (r : Fin 50000) (q : Fin 128) :
    Cert.Chain.mlp (F := Ideal) x a Wa ba Wb bb (ix2 r q) = mlpRow x a Wa ba Wb bb r q := by
  unfold Cert.Chain.mlp
  rw [layer_apply]
  unfold mlpRow mlpAt
  refine congrArg (fun s => max (s + bb (ix1 q)) 0) (Finset.sum_congr rfl fun k _ => ?_)
  rw [layer_apply]
  rfl

/-- The reference's pooled sums at (g, d). -/
theorem pool_apply (b : IVec S50000 32) (h : FVec Ideal S50000x128 .f32) (g : Fin 64) (d : Fin 128) :
    Cert.Chain.pool (F := Ideal) b h (ix2 g d) = segSum (fun r => h (ix2 r d)) (fun r => b (ix1 r)) g := by
  unfold Cert.Chain.pool segSum
  rw [Cert.LibScatterRows.scatterAdd_rows_apply scatter_S64x128_S50000x1_S50000x128_1_0_0_1 rfl rfl rfl rfl,
    zeros_apply, zero_add]
  refine Finset.sum_congr rfl fun r _ => ?_
  rw [col_apply]

/-- The reference's counts at (g, 0). -/
theorem count_apply (b : IVec S50000 32) (g : Fin 64) :
    Cert.Chain.count (F := Ideal) b (ix2 g (0 : Fin 1)) = segSum (fun _ => 1) (fun r => b (ix1 r)) g := by
  unfold Cert.Chain.count segSum
  rw [Cert.LibScatterRows.scatterAdd_rows_apply scatter_S64x1_S50000x1_S50000x1_1_0_0_1 rfl rfl rfl rfl,
    zeros_apply, zero_add]
  refine Finset.sum_congr rfl fun r _ => ?_
  rw [col_apply, ones_apply]

end Cert.RefRead

end
-- ==== Proof.Region0.lean ====
/-
  What the first kernel leaves in its output array: the reference's perceptron of the arrays it was entered with.

  Grid point t handles nodes 5000 t … 5000 t + 4999: it reads that block of rows of the features and of the
  aggregate, and the four parameter arrays whole, and writes back the same block of rows of the result. Row p of its
  block is the perceptron of node 5000 t + p, which is row 5000 t + p of the reference's perceptron of the whole
  arrays; the ten blocks tile the array.
-/
import proofs.«403606_j52819507806389_3_alg».proof.Proof.Gen.KernelIdeal.Frame
import proofs.«403606_j52819507806389_3_alg».proof.Proof.Payloads
import proofs.«403606_j52819507806389_3_alg».proof.Proof.RefRead
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- Node p of grid point t's block. -/
def rowOf (t : Fin cfg0.N) (p : Fin 5000) : Fin 50000 := ⟨5000 * t.val + p.val, by have := t.isLt; have hN : cfg0.N = 10 := N_0; omega⟩

/-- The printed index maps over the grid: the row windows move with the point, the parameter windows stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- The reference's perceptron of the arrays the region is entered with. -/
def G (c : Dev nD) : S50000x128.Idx → EReal :=
  Cert.Chain.mlp (F := Ideal) (V c main_arg0) (V c main_v17) (V c main_v4) (V c main_arg4) (V c main_v5) (V c main_arg6)

/-- Row p of the features' block at point t is row 5000 t + p of the features. -/
theorem blk0_apply (c : Dev nD) (t : Fin cfg0.N) (p : Fin 5000) (j : Fin 128) :
    (iblk0 V c 0 t : Vec Ideal S5000x128 .f32) (ix2 p j) = (V c main_arg0 : S50000x128.Idx → EReal) (ix2 (rowOf t p) j) := by
  obtain ⟨e0, e1, -⟩ := idx_facts t
  unfold iblk0
  rw [View.read_apply]
  show (V c main_arg0 : S50000x128.Idx → EReal) _ = _
  congr 1
  funext a
  apply Fin.ext
  match a with
  | ⟨0, _⟩ => show win0_0.index t (0 : Fin 2) * 5000 + 1 * p.val = 5000 * t.val + p.val; rw [e0]; omega
  | ⟨1, _⟩ => show win0_0.index t (1 : Fin 2) * 128 + 1 * j.val = j.val; rw [e1]; omega

/-- The same for the aggregate's block. -/
theorem blk1_apply (c : Dev nD) (t : Fin cfg0.N) (p : Fin 5000) (j : Fin 128) :
    (iblk0 V c 1 t : Vec Ideal S5000x128 .f32) (ix2 p j) = (V c main_v17 : S50000x128.Idx → EReal) (ix2 (rowOf t p) j) := by
  obtain ⟨-, -, e0, e1, -⟩ := idx_facts t
  unfold iblk0
  rw [View.read_apply]
  show (V c main_v17 : S50000x128.Idx → EReal) _ = _
  congr 1
  funext a
  apply Fin.ext
  match a with
  | ⟨0, _⟩ => show win0_1.index t (0 : Fin 2) * 5000 + 1 * p.val = 5000 * t.val + p.val; rw [e0]; omega
  | ⟨1, _⟩ => show win0_1.index t (1 : Fin 2) * 128 + 1 * j.val = j.val; rw [e1]; omega

/-- The parameter windows' blocks are the parameter arrays. -/
theorem blk2_eq (c : Dev nD) (t : Fin cfg0.N) : (iblk0 V c 2 t : Vec Ideal S128x128 .bf16) = (V c main_v4 : S128x128.Idx → EReal) := by
  obtain ⟨-, -, -, -, e0, e1, -⟩ := idx_facts t
  funext y
  unfold iblk0
  rw [View.read_apply]
  show (V c main_v4 : S128x128.Idx → EReal) _ = _
  congr 1
  funext a
  apply Fin.ext
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

theorem blk3_eq (c : Dev nD) (t : Fin cfg0.N) : (iblk0 V c 3 t : Vec Ideal S128 .f32) = (V c main_arg4 : S128.Idx → EReal) := by
  obtain ⟨-, -, -, -, -, -, e0, -⟩ := idx_facts t
  funext y
  unfold iblk0
  rw [View.read_apply]
  show (V c main_arg4 : S128.Idx → EReal) _ = _
  congr 1
  funext a
  apply Fin.ext
  match a with
  | ⟨0, _⟩ => show win0_3.index t (0 : Fin 1) * 128 + 1 * (y 0).val = (y 0).val; rw [e0]; omega

theorem blk4_eq (c : Dev nD) (t : Fin cfg0.N) : (iblk0 V c 4 t : Vec Ideal S128x128 .bf16) = (V c main_v5 : S128x128.Idx → EReal) := by
  obtain ⟨-, -, -, -, -, -, -, e0, e1, -⟩ := idx_facts t
  funext y
  unfold iblk0
  rw [View.read_apply]
  show (V c main_v5 : S128x128.Idx → EReal) _ = _
  congr 1
  funext a
  apply Fin.ext
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

theorem blk5_eq (c : Dev nD) (t : Fin cfg0.N) : (iblk0 V c 5 t : Vec Ideal S128 .f32) = (V c main_arg6 : S128.Idx → EReal) := by
  obtain ⟨-, -, -, -, -, -, -, -, -, e0, -⟩ := idx_facts t
  funext y
  unfold iblk0
  rw [View.read_apply]
  show (V c main_arg6 : S128.Idx → EReal) _ = _
  congr 1
  funext a
  apply Fin.ext
  match a with
  | ⟨0, _⟩ => show win0_5.index t (0 : Fin 1) * 128 + 1 * (y 0).val = (y 0).val; rw [e0]; omega

/-- The kernel's block entry is the reference's perceptron's entry, given that the block's rows are the arrays' rows. -/
theorem entry_eq (x0 x1 : Vec Ideal S5000x128 .f32) (x2 : Vec Ideal S128x128 .bf16) (x3 : Vec Ideal S128 .f32)
    (x4 : Vec Ideal S128x128 .bf16) (x5 : Vec Ideal S128 .f32)
    (X A : S50000x128.Idx → EReal) (Wa : S128x128.Idx → EReal) (ba : S128.Idx → EReal) (Wb : S128x128.Idx → EReal) (bb : S128.Idx → EReal)
    (r : Fin 50000) (p : Fin 5000) (q : Fin 128)
    (h0 : ∀ j : Fin 128, x0 (ix2 p j) = X (ix2 r j)) (h1 : ∀ j : Fin 128, x1 (ix2 p j) = A (ix2 r j))
    (h2 : x2 = Wa) (h3 : x3 = ba) (h4 : x4 = Wb) (h5 : x5 = bb) :
    k0_pay1 (F := Ideal) x0 x1 x2 x3 x4 x5 (ix2 p q) = Cert.Chain.mlp (F := Ideal) X A Wa ba Wb bb (ix2 r q) := by
  subst h2 h3 h4 h5
  rw [Cert.Payloads.k0_pay1_apply, Cert.RefRead.mlp_apply]
  unfold Cert.Spec.mlpRow
  exact congrArg (fun a => Cert.Spec.mlpAt a x2 x3 x4 x5 q) (funext fun j => by rw [h0 j, h1 j])

/-- WHAT POINT t WRITES BACK is block t of the reference's perceptron. -/
theorem flushed_eq (c : Dev nD) (t : Fin cfg0.N) :
    (dat0 V c).flushed 6 t = ((cfg0.win 6).blk t).view.read (Elt Ideal) (G V c) := by
  obtain ⟨-, -, -, -, -, -, -, -, -, -, e0, e1⟩ := idx_facts t
  show (cfg0.win 6).cut (grid0.coords t) ((dat0 V c).after 6 t) = _
  rw [after0_6]
  unfold out0_6
  rw [View.canon_unit_zero hz]
  simp only [View.ld_unit_zero (S := S5000x128) hz, View.ld_unit_zero (S := S128x128) hz, View.ld_unit_zero (S := S128) hz1]
  funext y
  obtain ⟨p, q, rfl⟩ : ∃ (p : Fin 5000) (q : Fin 128), y = ix2 p q := ⟨y 0, y 1, eq_ix2 y⟩
  rw [View.read_apply]
  have he : ((cfg0.win 6).blk t).view.emb (ix2 p q) = (ix2 (rowOf t p) q : S50000x128.Idx) := by
    funext a
    apply Fin.ext
    match a with
    | ⟨0, _⟩ => show win0_6.index t (0 : Fin 2) * 5000 + 1 * p.val = 5000 * t.val + p.val; rw [e0]; omega
    | ⟨1, _⟩ => show win0_6.index t (1 : Fin 2) * 128 + 1 * q.val = q.val; rw [e1]; omega
  rw [he]
  exact entry_eq _ _ _ _ _ _ _ _ _ _ _ _ (rowOf t p) p q (fun j => blk0_apply V c t p j) (fun j => blk1_apply V c t p j)
    (blk2_eq V c t) (blk3_eq V c t) (blk4_eq V c t) (blk5_eq V c t)

/-- An index of the array is in point t's block iff its row is among the block's. -/
theorem mem_blk (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v18).slice (win0_6.rect t)).set ↔ _
  rw [View.set_slice_whole, Rect.mem_set_unit]
  exact Iff.rfl

/-- THE ARRAY after the region: the reference's perceptron of the entry arrays. -/
theorem final (c : Dev nD) : (dat0 V c).arrAt 6 cfg0.N = G V c :=
  (dat0 V c).arrAt_eq_of_cover 6 (G V c) (fun t _ => flushed_eq V c t) fun i => by
    have hi0 : (i 0).val < 50000 := (i 0).isLt
    have hi1 : (i 1).val < 128 := (i 1).isLt
    have hN : cfg0.N = 10 := N_0
    let t : Fin cfg0.N := ⟨(i 0).val / 5000, by omega⟩
    obtain ⟨-, -, -, -, -, -, -, -, -, -, e0, e1⟩ := idx_facts t
    refine ⟨t, flush0_6 t, ?_⟩
    rw [mem_blk]
    intro a
    match a with
    | ⟨0, _⟩ => show win0_6.index t (0 : Fin 2) * 5000 ≤ (i 0).val ∧ (i 0).val < win0_6.index t (0 : Fin 2) * 5000 + 5000; rw [e0]; show (i 0).val / 5000 * 5000 ≤ _ ∧ _ < (i 0).val / 5000 * 5000 + 5000; omega
    | ⟨1, _⟩ => show win0_6.index t (1 : Fin 2) * 128 ≤ (i 1).val ∧ (i 1).val < win0_6.index t (1 : Fin 2) * 128 + 128; rw [e1]; omega

end Cert.KernelIdeal.Region0

end
-- ==== Proof.Region1.lean ====
/-
  What the second kernel leaves in its two output arrays: per tile of 5000 nodes and per graph, the weighted sum of
  the reference's perceptron's rows and the sum of the weights.

  Grid point t handles nodes 5000 t … 5000 t + 4999: it reads that block of rows of the features, of the aggregate
  and of the graph numbers, and the four parameter arrays whole, and writes slab t of the sums and slab t of the
  counts. Row p of its block is node 5000 t + p, so the slab's entry (g, d) is the tile's weighted sum for graph g of
  column d of the reference's perceptron of the whole arrays; the ten slabs tile each output array.
-/
import proofs.«403606_j52819507806389_3_alg».proof.Proof.Gen.KernelIdeal.Frame
import proofs.«403606_j52819507806389_3_alg».proof.Proof.Payloads
import proofs.«403606_j52819507806389_3_alg».proof.Proof.RefRead
import Idealize.ShloMosaic.Lib.Pipeline.Value

set_option maxRecDepth 16384

noncomputable section

open scoped BigOperators

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl
theorem hz3 : (![0, 0, 0] : Fin 3 → Nat) = fun _ => 0 := funext fun a => by fin_cases a <;> rfl

/-- The tile of grid point t. -/
def tileOf (t : Fin cfg1.N) : Fin 10 := ⟨t.val, by have := t.isLt; have hN : cfg1.N = 10 := N_1; omega⟩

/-- The printed index maps over the grid: the row windows and the output slabs move with the point, the parameter
    windows stay. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0
    ∧ win1_7.index t (0 : Fin 3) = t.val ∧ win1_7.index t (1 : Fin 3) = 0 ∧ win1_7.index t (2 : Fin 3) = 0
    ∧ win1_8.index t (0 : Fin 3) = t.val ∧ win1_8.index t (1 : Fin 3) = 0 ∧ win1_8.index t (2 : Fin 3) = 0 :=
  (by decide +kernel : ∀ t : Fin grid1.N, _)

/-- The reference's perceptron of the arrays the region is entered with. -/
def H (c : Dev nD) : S50000x128.Idx → EReal :=
  Cert.Chain.mlp (F := Ideal) (V c main_v18) (V c main_v28) (V c main_v6) (V c main_arg8) (V c main_v7) (V c main_arg10)

/-- The graph numbers the region is entered with, node by node. -/
def B (c : Dev nD) : Fin 50000 → BitVec 32 := fun r => (V c main_v29 : S50000x1.Idx → BitVec 32) (ix2 r (0 : Fin 1))

/-- The sums' array: slab t, entry (g, d), is tile t's weighted sum for graph g of column d of the perceptron. -/
def G7 (c : Dev nD) : S10x64x128.Idx → EReal :=
  fun i => Cert.Spec.tileSum (fun r => H V c (ix2 r (i 2))) (B V c) (i 0) (i 1)

/-- The counts' array: slab t, entry (g, 0), is tile t's sum of the weights for graph g. -/
def G8 (c : Dev nD) : S10x64x1.Idx → EReal :=
  fun i => Cert.Spec.tileSum (fun _ => 1) (B V c) (i 0) (i 1)

/-- Row p of the features' block at point t is row 5000 t + p of the features. -/
theorem blk0_apply (c : Dev nD) (t : Fin cfg1.N) (p : Fin 5000) (j : Fin 128) :
    (iblk1 V c 0 t : Vec Ideal S5000x128 .f32) (ix2 p j) = (V c main_v18 : S50000x128.Idx → EReal) (ix2 (Cert.Spec.node (tileOf t) p) j) := by
  obtain ⟨e0, e1, -⟩ := idx_facts t
  unfold iblk1
  rw [View.read_apply]
  show (V c main_v18 : S50000x128.Idx → EReal) _ = _
  congr 1
  funext a
  apply Fin.ext
  match a with
  | ⟨0, _⟩ => show win1_0.index t (0 : Fin 2) * 5000 + 1 * p.val = 5000 * t.val + p.val; rw [e0]; omega
  | ⟨1, _⟩ => show win1_0.index t (1 : Fin 2) * 128 + 1 * j.val = j.val; rw [e1]; omega

/-- The same for the aggregate's block. -/
theorem blk1_apply (c : Dev nD) (t : Fin cfg1.N) (p : Fin 5000) (j : Fin 128) :
    (iblk1 V c 1 t : Vec Ideal S5000x128 .f32) (ix2 p j) = (V c main_v28 : S50000x128.Idx → EReal) (ix2 (Cert.Spec.node (tileOf t) p) j) := by
  obtain ⟨-, -, e0, e1, -⟩ := idx_facts t
  unfold iblk1
  rw [View.read_apply]
  show (V c main_v28 : S50000x128.Idx → EReal) _ = _
  congr 1
  funext a
  apply Fin.ext
  match a with
  | ⟨0, _⟩ => show win1_1.index t (0 : Fin 2) * 5000 + 1 * p.val = 5000 * t.val + p.val; rw [e0]; omega
  | ⟨1, _⟩ => show win1_1.index t (1 : Fin 2) * 128 + 1 * j.val = j.val; rw [e1]; omega

/-- Row p of the graph numbers' block at point t is node 5000 t + p's graph number. -/
theorem blk6_apply (c : Dev nD) (t : Fin cfg1.N) (p : Fin 5000) :
    (iblk1 V c 6 t : Vec Ideal S5000x1 .i32) (ix2 p (0 : Fin 1)) = B V c (Cert.Spec.node (tileOf t) p) := by
  obtain ⟨-, -, -, -, -, -, -, -, -, -, e0, e1, -⟩ := idx_facts t
  unfold iblk1 B
  rw [View.read_apply]
  show (V c main_v29 : S50000x1.Idx → BitVec 32) _ = _
  congr 1
  funext a
  apply Fin.ext
  match a with
  | ⟨0, _⟩ => show win1_6.index t (0 : Fin 2) * 5000 + 1 * p.val = 5000 * t.val + p.val; rw [e0]; omega
  | ⟨1, _⟩ => show win1_6.index t (1 : Fin 2) * 1 + 1 * 0 = 0; rw [e1]

/-- The parameter windows' blocks are the parameter arrays. -/
theorem blk2_eq (c : Dev nD) (t : Fin cfg1.N) : (iblk1 V c 2 t : Vec Ideal S128x128 .bf16) = (V c main_v6 : S128x128.Idx → EReal) := by
  obtain ⟨-, -, -, -, e0, e1, -⟩ := idx_facts t
  funext y
  unfold iblk1
  rw [View.read_apply]
  show (V c main_v6 : S128x128.Idx → EReal) _ = _
  congr 1
  funext a
  apply Fin.ext
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

theorem blk3_eq (c : Dev nD) (t : Fin cfg1.N) : (iblk1 V c 3 t : Vec Ideal S128 .f32) = (V c main_arg8 : S128.Idx → EReal) := by
  obtain ⟨-, -, -, -, -, -, e0, -⟩ := idx_facts t
  funext y
  unfold iblk1
  rw [View.read_apply]
  show (V c main_arg8 : S128.Idx → EReal) _ = _
  congr 1
  funext a
  apply Fin.ext
  match a with
  | ⟨0, _⟩ => show win1_3.index t (0 : Fin 1) * 128 + 1 * (y 0).val = (y 0).val; rw [e0]; omega

theorem blk4_eq (c : Dev nD) (t : Fin cfg1.N) : (iblk1 V c 4 t : Vec Ideal S128x128 .bf16) = (V c main_v7 : S128x128.Idx → EReal) := by
  obtain ⟨-, -, -, -, -, -, -, e0, e1, -⟩ := idx_facts t
  funext y
  unfold iblk1
  rw [View.read_apply]
  show (V c main_v7 : S128x128.Idx → EReal) _ = _
  congr 1
  funext a
  apply Fin.ext
  match a with
  | ⟨0, _⟩ => show win1_4.index t (0 : Fin 2) * 128 + 1 * (y 0).val = (y 0).val; rw [e0]; omega
  | ⟨1, _⟩ => show win1_4.index t (1 : Fin 2) * 128 + 1 * (y 1).val = (y 1).val; rw [e1]; omega

theorem blk5_eq (c : Dev nD) (t : Fin cfg1.N) : (iblk1 V c 5 t : Vec Ideal S128 .f32) = (V c main_arg10 : S128.Idx → EReal) := by
  obtain ⟨-, -, -, -, -, -, -, -, -, e0, -⟩ := idx_facts t
  funext y
  unfold iblk1
  rw [View.read_apply]
  show (V c main_arg10 : S128.Idx → EReal) _ = _
  congr 1
  funext a
  apply Fin.ext
  match a with
  | ⟨0, _⟩ => show win1_5.index t (0 : Fin 1) * 128 + 1 * (y 0).val = (y 0).val; rw [e0]; omega

/-- The kernel's slab entry of the sums is the tile's weighted sum of the reference's perceptron's column, given that
    the block's rows are the arrays' rows. -/
theorem sums_entry (x0 x1 : Vec Ideal S5000x128 .f32) (x2 : Vec Ideal S128x128 .bf16) (x3 : Vec Ideal S128 .f32)
    (x4 : Vec Ideal S128x128 .bf16) (x5 : Vec Ideal S128 .f32) (x6 : Vec Ideal S5000x1 .i32)
    (X A : S50000x128.Idx → EReal) (Wa : S128x128.Idx → EReal) (ba : S128.Idx → EReal) (Wb : S128x128.Idx → EReal) (bb : S128.Idx → EReal)
    (b : Fin 50000 → BitVec 32) (tt : Fin 10) (g : Fin 64) (d : Fin 128)
    (h0 : ∀ (p : Fin 5000) (j : Fin 128), x0 (ix2 p j) = X (ix2 (Cert.Spec.node tt p) j))
    (h1 : ∀ (p : Fin 5000) (j : Fin 128), x1 (ix2 p j) = A (ix2 (Cert.Spec.node tt p) j))
    (h2 : x2 = Wa) (h3 : x3 = ba) (h4 : x4 = Wb) (h5 : x5 = bb)
    (h6 : ∀ p : Fin 5000, x6 (ix2 p (0 : Fin 1)) = b (Cert.Spec.node tt p)) :
    k1_pay1 (F := Ideal) (k1_pay4 (F := Ideal) x0 x1 x2 x3 x4 x5 x6) (ix3 (0 : Fin 1) g d)
      = Cert.Spec.tileSum (fun r => Cert.Chain.mlp (F := Ideal) X A Wa ba Wb bb (ix2 r d)) b tt g := by
  subst h2 h3 h4 h5
  rw [Cert.Payloads.k1_pay1_apply, Cert.Payloads.k1_pay4_apply]
  unfold Cert.Spec.tileSum
  refine Finset.sum_congr rfl fun p _ => ?_
  rw [h6 p]
  beta_reduce
  rw [Cert.RefRead.mlp_apply]
  unfold Cert.Spec.mlpRow
  exact congrArg (fun a => Cert.Spec.hit (b (Cert.Spec.node tt p)) g * Cert.Spec.mlpAt a x2 x3 x4 x5 d)
    (funext fun j => by rw [h0 p j, h1 p j])

/-- The kernel's slab entry of the counts is the tile's sum of the weights. -/
theorem counts_entry (x6 : Vec Ideal S5000x1 .i32) (b : Fin 50000 → BitVec 32) (tt : Fin 10) (g : Fin 64)
    (h6 : ∀ p : Fin 5000, x6 (ix2 p (0 : Fin 1)) = b (Cert.Spec.node tt p)) :
    k1_pay2 (F := Ideal) (k1_pay5 (F := Ideal) x6) (ix3 (0 : Fin 1) g (0 : Fin 1)) = Cert.Spec.tileSum (fun _ => 1) b tt g := by
  rw [Cert.Payloads.k1_pay2_apply, Cert.Payloads.k1_pay5_apply]
  unfold Cert.Spec.tileSum
  exact Finset.sum_congr rfl fun p _ => by rw [h6 p]

/-- WHAT POINT t WRITES BACK to the sums is slab t of `G7`. -/
theorem flushed7_eq (c : Dev nD) (t : Fin cfg1.N) :
    (dat1 V c).flushed 7 t = ((cfg1.win 7).blk t).view.read (Elt Ideal) (G7 V c) := by
  obtain ⟨-, -, -, -, -, -, -, -, -, -, -, -, e0, e1, e2, -⟩ := idx_facts t
  show (cfg1.win 7).cut (grid1.coords t) ((dat1 V c).after 7 t) = _
  rw [after1_7]
  unfold out1_7
  rw [View.canon_unit_zero hz3]
  simp only [View.ld_unit_zero (S := S5000x128) hz, View.ld_unit_zero (S := S128x128) hz, View.ld_unit_zero (S := S128) hz1,
    View.ld_unit_zero (S := S5000x1) hz]
  funext y
  obtain ⟨u, g, d, rfl⟩ : ∃ (u : Fin 1) (g : Fin 64) (d : Fin 128), y = ix3 u g d := ⟨y 0, y 1, y 2, eq_ix3 y⟩
  obtain rfl : u = 0 := Subsingleton.elim _ _
  rw [View.read_apply]
  have he : ((cfg1.win 7).blk t).view.emb (ix3 (0 : Fin 1) g d) = (ix3 (tileOf t) g d : S10x64x128.Idx) := by
    funext a
    apply Fin.ext
    match a with
    | ⟨0, _⟩ => show win1_7.index t (0 : Fin 3) * 1 + 1 * 0 = t.val; rw [e0]; omega
    | ⟨1, _⟩ => show win1_7.index t (1 : Fin 3) * 64 + 1 * g.val = g.val; rw [e1]; omega
    | ⟨2, _⟩ => show win1_7.index t (2 : Fin 3) * 128 + 1 * d.val = d.val; rw [e2]; omega
  rw [he]
  show _ = Cert.Spec.tileSum (fun r => H V c (ix2 r d)) (B V c) (tileOf t) g
  exact sums_entry _ _ _ _ _ _ _ _ _ _ _ _ _ (B V c) (tileOf t) g d (fun p j => blk0_apply V c t p j) (fun p j => blk1_apply V c t p j)
    (blk2_eq V c t) (blk3_eq V c t) (blk4_eq V c t) (blk5_eq V c t) (fun p => blk6_apply V c t p)

/-- WHAT POINT t WRITES BACK to the counts is slab t of `G8`. -/
theorem flushed8_eq (c : Dev nD) (t : Fin cfg1.N) :
    (dat1 V c).flushed 8 t = ((cfg1.win 8).blk t).view.read (Elt Ideal) (G8 V c) := by
  obtain ⟨-, -, -, -, -, -, -, -, -, -, -, -, -, -, -, e0, e1, e2⟩ := idx_facts t
  show (cfg1.win 8).cut (grid1.coords t) ((dat1 V c).after 8 t) = _
  rw [after1_8]
  unfold out1_8
  rw [View.canon_unit_zero hz3]
  simp only [View.ld_unit_zero (S := S5000x1) hz]
  funext y
  obtain ⟨u, g, v, rfl⟩ : ∃ (u : Fin 1) (g : Fin 64) (v : Fin 1), y = ix3 u g v := ⟨y 0, y 1, y 2, eq_ix3 y⟩
  obtain rfl : u = 0 := Subsingleton.elim _ _
  obtain rfl : v = 0 := Subsingleton.elim _ _
  rw [View.read_apply]
  have he : ((cfg1.win 8).blk t).view.emb (ix3 (0 : Fin 1) g (0 : Fin 1)) = (ix3 (tileOf t) g (0 : Fin 1) : S10x64x1.Idx) := by
    funext a
    apply Fin.ext
    match a with
    | ⟨0, _⟩ => show win1_8.index t (0 : Fin 3) * 1 + 1 * 0 = t.val; rw [e0]; omega
    | ⟨1, _⟩ => show win1_8.index t (1 : Fin 3) * 64 + 1 * g.val = g.val; rw [e1]; omega
    | ⟨2, _⟩ => show win1_8.index t (2 : Fin 3) * 1 + 1 * 0 = 0; rw [e2]
  rw [he]
  show _ = Cert.Spec.tileSum (fun _ => 1) (B V c) (tileOf t) g
  exact counts_entry _ (B V c) (tileOf t) g (fun p => blk6_apply V c t p)

/-- An index of the sums' array is in point t's slab iff each coordinate is in the slab's range. -/
theorem mem_blk7 (t : Fin cfg1.N) (i : S10x64x128.Idx) :
    i ∈ ((cfg1.win 7).blk t).view.set ↔ ∀ a : Fin 3, win1_7.index t a * S1x64x128.size a ≤ (i a).val ∧ (i a).val < win1_7.index t a * S1x64x128.size a + S1x64x128.size a := by
  show i ∈ ((View.whole main_v30_0).slice (win1_7.rect t)).set ↔ _
  rw [View.set_slice_whole, Rect.mem_set_unit]
  exact Iff.rfl

theorem mem_blk8 (t : Fin cfg1.N) (i : S10x64x1.Idx) :
    i ∈ ((cfg1.win 8).blk t).view.set ↔ ∀ a : Fin 3, win1_8.index t a * S1x64x1.size a ≤ (i a).val ∧ (i a).val < win1_8.index t a * S1x64x1.size a + S1x64x1.size a := by
  show i ∈ ((View.whole main_v30_1).slice (win1_8.rect t)).set ↔ _
  rw [View.set_slice_whole, Rect.mem_set_unit]
  exact Iff.rfl

/-- THE SUMS' ARRAY after the region. -/
theorem final7 (c : Dev nD) : (dat1 V c).arrAt 7 cfg1.N = G7 V c :=
  (dat1 V c).arrAt_eq_of_cover 7 (G7 V c) (fun t _ => flushed7_eq V c t) fun i => by
    have hi0 : (i 0).val < 10 := (i 0).isLt
    have hi1 : (i 1).val < 64 := (i 1).isLt
    have hi2 : (i 2).val < 128 := (i 2).isLt
    have hN : cfg1.N = 10 := N_1
    let t : Fin cfg1.N := ⟨(i 0).val, by omega⟩
    obtain ⟨-, -, -, -, -, -, -, -, -, -, -, -, e0, e1, e2, -⟩ := idx_facts t
    refine ⟨t, flush1_7 t, ?_⟩
    rw [mem_blk7]
    intro a
    match a with
    | ⟨0, _⟩ => show win1_7.index t (0 : Fin 3) * 1 ≤ (i 0).val ∧ (i 0).val < win1_7.index t (0 : Fin 3) * 1 + 1; rw [e0]; show (i 0).val * 1 ≤ _ ∧ _ < (i 0).val * 1 + 1; omega
    | ⟨1, _⟩ => show win1_7.index t (1 : Fin 3) * 64 ≤ (i 1).val ∧ (i 1).val < win1_7.index t (1 : Fin 3) * 64 + 64; rw [e1]; omega
    | ⟨2, _⟩ => show win1_7.index t (2 : Fin 3) * 128 ≤ (i 2).val ∧ (i 2).val < win1_7.index t (2 : Fin 3) * 128 + 128; rw [e2]; omega

/-- THE COUNTS' ARRAY after the region. -/
theorem final8 (c : Dev nD) : (dat1 V c).arrAt 8 cfg1.N = G8 V c :=
  (dat1 V c).arrAt_eq_of_cover 8 (G8 V c) (fun t _ => flushed8_eq V c t) fun i => by
    have hi0 : (i 0).val < 10 := (i 0).isLt
    have hi1 : (i 1).val < 64 := (i 1).isLt
    have hi2 : (i 2).val < 1 := (i 2).isLt
    have hN : cfg1.N = 10 := N_1
    let t : Fin cfg1.N := ⟨(i 0).val, by omega⟩
    obtain ⟨-, -, -, -, -, -, -, -, -, -, -, -, -, -, -, e0, e1, e2⟩ := idx_facts t
    refine ⟨t, flush1_8 t, ?_⟩
    rw [mem_blk8]
    intro a
    match a with
    | ⟨0, _⟩ => show win1_8.index t (0 : Fin 3) * 1 ≤ (i 0).val ∧ (i 0).val < win1_8.index t (0 : Fin 3) * 1 + 1; rw [e0]; show (i 0).val * 1 ≤ _ ∧ _ < (i 0).val * 1 + 1; omega
    | ⟨1, _⟩ => show win1_8.index t (1 : Fin 3) * 64 ≤ (i 1).val ∧ (i 1).val < win1_8.index t (1 : Fin 3) * 64 + 64; rw [e1]; omega
    | ⟨2, _⟩ => show win1_8.index t (2 : Fin 3) * 1 ≤ (i 2).val ∧ (i 2).val < win1_8.index t (2 : Fin 3) * 1 + 1; rw [e2]; omega

end Cert.KernelIdeal.Region1

end
-- ==== Proof.KernelValue.lean ====
/-
  The kernel program's result, read back through its five segments, is the reference's network of the arguments.

  Before the first kernel the host computes the neighbours' aggregate of the features and narrows the four weight
  matrices (the identity on the extended reals); the first kernel leaves the perceptron of features and aggregate;
  the host aggregates that again; the second kernel leaves, per tile and graph, the weighted sums of the second
  perceptron's rows and the sums of the weights; the host adds the ten tiles, which is the sum over each graph's
  nodes and its node count, and closes with the mean, the last layer and the logistic function, as the reference does.
-/
import proofs.«403606_j52819507806389_3_alg».proof.Proof.Gen.KernelIdeal.Frame
import proofs.«403606_j52819507806389_3_alg».proof.Proof.Region0
import proofs.«403606_j52819507806389_3_alg».proof.Proof.Region1
import proofs.«403606_j52819507806389_3_alg».proof.Proof.Chain
import proofs.«403606_j52819507806389_3_alg».proof.Proof.RefRead
import proofs.«403606_j52819507806389_3_alg».proof.Proof.PoolMath
import Idealize.ShloMosaic.Lib.StableHlo.Run
import Idealize.ShloMosaic.PureOps.Ideal.Laws
import Idealize.ShloMosaic.Lib.Pipeline.Value

set_option maxRecDepth 16384

noncomputable section

open scoped BigOperators

namespace Cert.KernelIdeal.KernelValue

open Cert.KernelIdeal Cert.KernelIdeal.Gen
open Idealize.ShloMosaic Idealize.ShloMosaic.TcCoe Idealize.ShloMosaic.ValueIdx Idealize.SL.Sem Idealize.ShloMosaic.StableHlo

/-! ## Adding the ten tiles -/

/-- The host's sum over the tile axis of per-tile weighted sums is the reference's pooled sum. -/
theorem reduce_sums (Hf : S50000x128.Idx → EReal) (b : S50000.Idx → BitVec 32) (G : S10x64x128.Idx → EReal) (init : S_.Idx → EReal)
    (hG : ∀ (t : Fin 10) (g : Fin 64) (d : Fin 128), G (ix3 t g d) = Cert.Spec.tileSum (fun r => Hf (ix2 r d)) (fun r => b (ix1 r)) t g)
    (hinit : ∀ i, init i = 0) :
    Host.reduceAdd (F := Ideal) G init reducesTo_S10x64x128_S64x128_d0 h_S_ = Cert.Chain.pool (F := Ideal) b Hf := by
  funext i
  obtain ⟨g, d, rfl⟩ : ∃ (g : Fin 64) (d : Fin 128), i = ix2 g d := ⟨i 0, i 1, eq_ix2 i⟩
  rw [Cert.RefRead.pool_apply, ← Cert.PoolMath.tiles_segSum]
  unfold Host.reduceAdd
  rw [Ideal.hostReduceAdd_def, Ideal.hostReduceAdd_single reducesTo_S10x64x128_S64x128_d0 (by decide : S10x64x128.Reduces [0] S64x128), hinit, zero_add]
  refine Finset.sum_congr rfl fun t _ => ?_
  refine Eq.trans (congrArg G ?_) (hG t g d)
  funext a
  apply Fin.ext
  match a with
  | ⟨0, _⟩ => rfl
  | ⟨1, _⟩ => rfl
  | ⟨2, _⟩ => rfl

/-- The host's sum over the tile axis of per-tile sums of weights is the reference's node count. -/
theorem reduce_counts (b : S50000.Idx → BitVec 32) (G : S10x64x1.Idx → EReal) (init : S_.Idx → EReal)
    (hG : ∀ (t : Fin 10) (g : Fin 64), G (ix3 t g (0 : Fin 1)) = Cert.Spec.tileSum (fun _ => 1) (fun r => b (ix1 r)) t g)
    (hinit : ∀ i, init i = 0) :
    Host.reduceAdd (F := Ideal) G init reducesTo_S10x64x1_S64x1_d0 h_S_ = Cert.Chain.count (F := Ideal) b := by
  funext i
  obtain ⟨g, v, rfl⟩ : ∃ (g : Fin 64) (v : Fin 1), i = ix2 g v := ⟨i 0, i 1, eq_ix2 i⟩
  obtain rfl : v = 0 := Subsingleton.elim _ _
  rw [Cert.RefRead.count_apply, ← Cert.PoolMath.tiles_segSum]
  unfold Host.reduceAdd
  rw [Ideal.hostReduceAdd_def, Ideal.hostReduceAdd_single reducesTo_S10x64x1_S64x1_d0 (by decide : S10x64x1.Reduces [0] S64x1), hinit, zero_add]
  refine Finset.sum_congr rfl fun t _ => ?_
  refine Eq.trans (congrArg G ?_) (hG t g)
  funext a
  apply Fin.ext
  match a with
  | ⟨0, _⟩ => rfl
  | ⟨1, _⟩ => rfl
  | ⟨2, _⟩ => rfl

/-! ## The host's chains in this program's own operations

The kernel program's host stretches apply the same operations as the reference's maps; their dimension-number records
are separate definitions with the same fields, so each chain equals the reference's once the records are identified. -/

/-- Every node's sum of its in-neighbours' rows, in this program's operations. -/
def aggK (E : IVec S2x800000 32) (h : FVec Ideal S50000x128 .f32) : FVec Ideal S50000x128 .f32 :=
  Host.scatterAdd scatter_S50000x128_S800000x1_S800000x128_1_0_0_1 (broadcastInDim S50000x128 ![] bcast_S_S50000x128 (constant S_ .f32 0x00000000#32)) (broadcastInDim S800000x1 ![0] bcast_S800000_S800000x1_0 (shapeCast S800000 (extractStridedSlice S1x800000 ![1, 0] E slices_S2x800000_S1x800000_1_0) shapeCasts_S1x800000_S800000)) (Host.gather gather_S50000x128_S800000x1_S800000x128_1_0_n_n_0_1_1128 h (broadcastInDim S800000x1 ![0] bcast_S800000_S800000x1_0 (select (cmpi .slt (shapeCast S800000 (extractStridedSlice S1x800000 ![0, 0] E slices_S2x800000_S1x800000_0_0) shapeCasts_S1x800000_S800000) (broadcastInDim S800000 ![] bcast_S_S800000 (constantI S_ 32 0#32))) (addi (shapeCast S800000 (extractStridedSlice S1x800000 ![0, 0] E slices_S2x800000_S1x800000_0_0) shapeCasts_S1x800000_S800000) (broadcastInDim S800000 ![] bcast_S_S800000 (constantI S_ 32 50000#32))) (shapeCast S800000 (extractStridedSlice S1x800000 ![0, 0] E slices_S2x800000_S1x800000_0_0) shapeCasts_S1x800000_S800000))))

theorem gather_rec : gather_S50000x128_S800000x1_S800000x128_1_0_n_n_0_1_1128 = Cert.ReferenceIdeal.gather_S50000x128_S800000x1_S800000x128_1_0_n_n_0_1_1128 := rfl
theorem scatter_rec : scatter_S50000x128_S800000x1_S800000x128_1_0_0_1 = Cert.ReferenceIdeal.scatter_S50000x128_S800000x1_S800000x128_1_0_0_1 := rfl
theorem dot_rec : dot_S64x128_S128x10_S64x10_1_0_0_1_n_n = Cert.ReferenceIdeal.dot_S64x128_S128x10_S64x10_1_0_0_1_n_n := rfl

theorem aggK_eq (E : IVec S2x800000 32) (h : FVec Ideal S50000x128 .f32) : aggK E h = Cert.Chain.agg (F := Ideal) E h := by
  unfold aggK Cert.Chain.agg Cert.Chain.srcIdx Cert.Chain.dstIdx
  rw [gather_rec, scatter_rec]

/-- The mean over each graph, the last linear layer and the logistic function, in this program's operations. -/
def tailK (S : FVec Ideal S64x128 .f32) (C : FVec Ideal S64x1 .f32) (Wfc : FVec Ideal S128x10 .f32) (bfc : FVec Ideal S10 .f32) : FVec Ideal S64x10 .f32 :=
  Host.divf (broadcastInDim S64x10 ![] bcast_S_S64x10 (constant S_ .f32 0x3F800000#32)) (addf (broadcastInDim S64x10 ![] bcast_S_S64x10 (constant S_ .f32 0x3F800000#32)) (Host.exp (Host.negf (addf (Host.dotGeneral dot_S64x128_S128x10_S64x10_1_0_0_1_n_n none (Host.divf S (broadcastInDim S64x128 ![0, 1] bcast_S64x1_S64x128_0_1 (maximumf C (broadcastInDim S64x1 ![] bcast_S_S64x1 (constant S_ .f32 0x3F800000#32))))) Wfc) (broadcastInDim S64x10 ![0, 1] bcast_S1x10_S64x10_0_1 (broadcastInDim S1x10 ![1] bcast_S10_S1x10_1 bfc))))))

theorem tailK_eq (S : FVec Ideal S64x128 .f32) (C : FVec Ideal S64x1 .f32) (Wfc : FVec Ideal S128x10 .f32) (bfc : FVec Ideal S10 .f32) :
    tailK S C Wfc bfc = Cert.Chain.tail (F := Ideal) S C Wfc bfc := by
  unfold tailK Cert.Chain.tail
  rw [dot_rec]

variable (m : (ℓ : Loc nD τ sig) → Buf (Elt Ideal) ℓ) (ρ : Dev nD → PrngReg)

/-! ## Before the first kernel -/

theorem W1_arg0 (c : Dev nD) : W1 m ρ c (Proc.devRef .tc main_arg0) = (m ((c : Thread nD τ).loc main_arg0)) := by
  show StableHlo.after hostOps0 (W0 m ρ c) (Proc.devRef .tc main_arg0) = _
  after_results

theorem W1_arg2 (c : Dev nD) : W1 m ρ c (Proc.devRef .tc main_arg2) = (m ((c : Thread nD τ).loc main_arg2)) := by
  show StableHlo.after hostOps0 (W0 m ρ c) (Proc.devRef .tc main_arg2) = _
  after_results

theorem W1_arg4 (c : Dev nD) : W1 m ρ c (Proc.devRef .tc main_arg4) = (m ((c : Thread nD τ).loc main_arg4)) := by
  show StableHlo.after hostOps0 (W0 m ρ c) (Proc.devRef .tc main_arg4) = _
  after_results

theorem W1_arg6 (c : Dev nD) : W1 m ρ c (Proc.devRef .tc main_arg6) = (m ((c : Thread nD τ).loc main_arg6)) := by
  show StableHlo.after hostOps0 (W0 m ρ c) (Proc.devRef .tc main_arg6) = _
  after_results

theorem W1_arg8 (c : Dev nD) : W1 m ρ c (Proc.devRef .tc main_arg8) = (m ((c : Thread nD τ).loc main_arg8)) := by
  show StableHlo.after hostOps0 (W0 m ρ c) (Proc.devRef .tc main_arg8) = _
  after_results

theorem W1_arg10 (c : Dev nD) : W1 m ρ c (Proc.devRef .tc main_arg10) = (m ((c : Thread nD τ).loc main_arg10)) := by
  show StableHlo.after hostOps0 (W0 m ρ c) (Proc.devRef .tc main_arg10) = _
  after_results

theorem W1_arg11 (c : Dev nD) : W1 m ρ c (Proc.devRef .tc main_arg11) = (m ((c : Thread nD τ).loc main_arg11)) := by
  show StableHlo.after hostOps0 (W0 m ρ c) (Proc.devRef .tc main_arg11) = _
  after_results

theorem W1_arg12 (c : Dev nD) : W1 m ρ c (Proc.devRef .tc main_arg12) = (m ((c : Thread nD τ).loc main_arg12)) := by
  show StableHlo.after hostOps0 (W0 m ρ c) (Proc.devRef .tc main_arg12) = _
  after_results

/-- The narrowed weights are the weights. -/
theorem W1_v4 (c : Dev nD) : W1 m ρ c (Proc.devRef .tc main_v4) = (m ((c : Thread nD τ).loc main_arg3)) := by
  show StableHlo.after hostOps0 (W0 m ρ c) (Proc.devRef .tc main_v4) = _
  after_results
  rfl
theorem W1_v5 (c : Dev nD) : W1 m ρ c (Proc.devRef .tc main_v5) = (m ((c : Thread nD τ).loc main_arg5)) := by
  show StableHlo.after hostOps0 (W0 m ρ c) (Proc.devRef .tc main_v5) = _
  after_results
  rfl
theorem W1_v6 (c : Dev nD) : W1 m ρ c (Proc.devRef .tc main_v6) = (m ((c : Thread nD τ).loc main_arg7)) := by
  show StableHlo.after hostOps0 (W0 m ρ c) (Proc.devRef .tc main_v6) = _
  after_results
  rfl
theorem W1_v7 (c : Dev nD) : W1 m ρ c (Proc.devRef .tc main_v7) = (m ((c : Thread nD τ).loc main_arg9)) := by
  show StableHlo.after hostOps0 (W0 m ρ c) (Proc.devRef .tc main_v7) = _
  after_results
  rfl

/-- The edges' sources and destinations as the host first reads them. -/
theorem W1_v1 (c : Dev nD) : W1 m ρ c (Proc.devRef .tc main_v1)
    = shapeCast S800000 (extractStridedSlice S1x800000 ![0, 0] (m ((c : Thread nD τ).loc main_arg1)) slices_S2x800000_S1x800000_0_0) shapeCasts_S1x800000_S800000 := by
  show StableHlo.after hostOps0 (W0 m ρ c) (Proc.devRef .tc main_v1) = _
  after_results
  rfl
theorem W1_v3 (c : Dev nD) : W1 m ρ c (Proc.devRef .tc main_v3)
    = shapeCast S800000 (extractStridedSlice S1x800000 ![1, 0] (m ((c : Thread nD τ).loc main_arg1)) slices_S2x800000_S1x800000_1_0) shapeCasts_S1x800000_S800000 := by
  show StableHlo.after hostOps0 (W0 m ρ c) (Proc.devRef .tc main_v3) = _
  after_results
  rfl

set_option maxHeartbeats 4000000 in
/-- The first aggregate: of the features. -/
theorem W1_v17 (c : Dev nD) : W1 m ρ c (Proc.devRef .tc main_v17) = Cert.Chain.agg (F := Ideal) (m ((c : Thread nD τ).loc main_arg1)) (m ((c : Thread nD τ).loc main_arg0)) := by
  rw [← aggK_eq]
  show StableHlo.after hostOps0 (W0 m ρ c) (Proc.devRef .tc main_v17) = _
  after_results_simp
  rfl

/-! ## After the first kernel -/

/-- The first perceptron's result, as the reference's. -/
def h₁ (c : Dev nD) : S50000x128.Idx → EReal :=
  Cert.Chain.mlp (F := Ideal) (m ((c : Thread nD τ).loc main_arg0)) (Cert.Chain.agg (F := Ideal) (m ((c : Thread nD τ).loc main_arg1)) (m ((c : Thread nD τ).loc main_arg0)))
    (m ((c : Thread nD τ).loc main_arg3)) (m ((c : Thread nD τ).loc main_arg4)) (m ((c : Thread nD τ).loc main_arg5)) (m ((c : Thread nD τ).loc main_arg6))

theorem W2_v18 (c : Dev nD) : W2 m ρ c (Proc.devRef .tc main_v18) = h₁ m c := by
  refine (W2_arr m ρ c 6).trans ?_
  rw [Cert.KernelIdeal.Region0.final]
  unfold Cert.KernelIdeal.Region0.G h₁
  rw [show V1 m ρ c main_arg0 = _ from W1_arg0 m ρ c, show V1 m ρ c main_v17 = _ from W1_v17 m ρ c,
    show V1 m ρ c main_v4 = _ from W1_v4 m ρ c, show V1 m ρ c main_arg4 = _ from W1_arg4 m ρ c,
    show V1 m ρ c main_v5 = _ from W1_v5 m ρ c, show V1 m ρ c main_arg6 = _ from W1_arg6 m ρ c]

/-! ## Before the second kernel -/

theorem W3_v18 (c : Dev nD) : W3 m ρ c (Proc.devRef .tc main_v18) = h₁ m c := by
  show StableHlo.after hostOps1 (W2 m ρ c) (Proc.devRef .tc main_v18) = _
  after_results
  exact W2_v18 m ρ c

/-- The second aggregate: of the first perceptron's result. -/
theorem W3_v28 (c : Dev nD) : W3 m ρ c (Proc.devRef .tc main_v28) = Cert.Chain.agg (F := Ideal) (m ((c : Thread nD τ).loc main_arg1)) (h₁ m c) := by
  rw [← aggK_eq]
  show StableHlo.after hostOps1 (W2 m ρ c) (Proc.devRef .tc main_v28) = _
  after_results
  rw [W2_v18 m ρ c, W2_of_ne m ρ c main_v1 (by decide), W2_of_ne m ρ c main_v3 (by decide), W1_v1 m ρ c, W1_v3 m ρ c]
  rfl

theorem W3_v6 (c : Dev nD) : W3 m ρ c (Proc.devRef .tc main_v6) = (m ((c : Thread nD τ).loc main_arg7)) := by
  show StableHlo.after hostOps1 (W2 m ρ c) (Proc.devRef .tc main_v6) = _
  after_results
  rw [W2_of_ne m ρ c main_v6 (by decide)]
  exact W1_v6 m ρ c
theorem W3_v7 (c : Dev nD) : W3 m ρ c (Proc.devRef .tc main_v7) = (m ((c : Thread nD τ).loc main_arg9)) := by
  show StableHlo.after hostOps1 (W2 m ρ c) (Proc.devRef .tc main_v7) = _
  after_results
  rw [W2_of_ne m ρ c main_v7 (by decide)]
  exact W1_v7 m ρ c
theorem W3_arg8 (c : Dev nD) : W3 m ρ c (Proc.devRef .tc main_arg8) = (m ((c : Thread nD τ).loc main_arg8)) := by
  show StableHlo.after hostOps1 (W2 m ρ c) (Proc.devRef .tc main_arg8) = _
  after_results
  rw [W2_of_ne m ρ c main_arg8 (by decide)]
  exact W1_arg8 m ρ c

theorem W3_arg10 (c : Dev nD) : W3 m ρ c (Proc.devRef .tc main_arg10) = (m ((c : Thread nD τ).loc main_arg10)) := by
  show StableHlo.after hostOps1 (W2 m ρ c) (Proc.devRef .tc main_arg10) = _
  after_results
  rw [W2_of_ne m ρ c main_arg10 (by decide)]
  exact W1_arg10 m ρ c

theorem W3_arg11 (c : Dev nD) : W3 m ρ c (Proc.devRef .tc main_arg11) = (m ((c : Thread nD τ).loc main_arg11)) := by
  show StableHlo.after hostOps1 (W2 m ρ c) (Proc.devRef .tc main_arg11) = _
  after_results
  rw [W2_of_ne m ρ c main_arg11 (by decide)]
  exact W1_arg11 m ρ c

theorem W3_arg12 (c : Dev nD) : W3 m ρ c (Proc.devRef .tc main_arg12) = (m ((c : Thread nD τ).loc main_arg12)) := by
  show StableHlo.after hostOps1 (W2 m ρ c) (Proc.devRef .tc main_arg12) = _
  after_results
  rw [W2_of_ne m ρ c main_arg12 (by decide)]
  exact W1_arg12 m ρ c

/-- The graph numbers as a column. -/
theorem W3_v29 (c : Dev nD) : W3 m ρ c (Proc.devRef .tc main_v29) = shapeCast S50000x1 (m ((c : Thread nD τ).loc main_arg2)) shapeCasts_S50000_S50000x1 := by
  show StableHlo.after hostOps1 (W2 m ρ c) (Proc.devRef .tc main_v29) = _
  after_results
  rw [W2_of_ne m ρ c main_arg2 (by decide), W1_arg2 m ρ c]
  rfl

/-! ## After the second kernel -/

/-- The second perceptron's result, as the reference's. -/
def h₂ (c : Dev nD) : S50000x128.Idx → EReal :=
  Cert.Chain.mlp (F := Ideal) (h₁ m c) (Cert.Chain.agg (F := Ideal) (m ((c : Thread nD τ).loc main_arg1)) (h₁ m c))
    (m ((c : Thread nD τ).loc main_arg7)) (m ((c : Thread nD τ).loc main_arg8)) (m ((c : Thread nD τ).loc main_arg9)) (m ((c : Thread nD τ).loc main_arg10))

theorem H_eq (c : Dev nD) : Cert.KernelIdeal.Region1.H (V3 m ρ) c = h₂ m c := by
  unfold Cert.KernelIdeal.Region1.H h₂
  rw [show V3 m ρ c main_v18 = _ from W3_v18 m ρ c, show V3 m ρ c main_v28 = _ from W3_v28 m ρ c,
    show V3 m ρ c main_v6 = _ from W3_v6 m ρ c, show V3 m ρ c main_arg8 = _ from W3_arg8 m ρ c,
    show V3 m ρ c main_v7 = _ from W3_v7 m ρ c, show V3 m ρ c main_arg10 = _ from W3_arg10 m ρ c]

theorem B_eq (c : Dev nD) (r : Fin 50000) : Cert.KernelIdeal.Region1.B (V3 m ρ) c r = ((m ((c : Thread nD τ).loc main_arg2)) : S50000.Idx → BitVec 32) (ix1 r) := by
  unfold Cert.KernelIdeal.Region1.B
  rw [show V3 m ρ c main_v29 = _ from W3_v29 m ρ c]
  exact shapeCast_apply _ _ _ _ (by
    show (S50000.rowMajor (ix1 r)).val = (S50000x1.rowMajor (ix2 r (0 : Fin 1))).val
    rw [Shape.rowMajor_val_one, Shape.rowMajor_val_two]
    show r.val = r.val * 1 + 0
    omega)

theorem W4_v30_0 (c : Dev nD) : W4 m ρ c (Proc.devRef .tc main_v30_0) = Cert.KernelIdeal.Region1.G7 (V3 m ρ) c :=
  (W4_arr m ρ c 7).trans (Cert.KernelIdeal.Region1.final7 (V3 m ρ) c)
theorem W4_v30_1 (c : Dev nD) : W4 m ρ c (Proc.devRef .tc main_v30_1) = Cert.KernelIdeal.Region1.G8 (V3 m ρ) c :=
  (W4_arr m ρ c 8).trans (Cert.KernelIdeal.Region1.final8 (V3 m ρ) c)
theorem W4_arg11 (c : Dev nD) : W4 m ρ c (Proc.devRef .tc main_arg11) = (m ((c : Thread nD τ).loc main_arg11)) := by
  rw [W4_of_ne m ρ c main_arg11 (by decide)]
  exact W3_arg11 m ρ c

theorem W4_arg12 (c : Dev nD) : W4 m ρ c (Proc.devRef .tc main_arg12) = (m ((c : Thread nD τ).loc main_arg12)) := by
  rw [W4_of_ne m ρ c main_arg12 (by decide)]
  exact W3_arg12 m ρ c

/-! ## The result -/

set_option maxHeartbeats 4000000 in
/-- The last segment is the tail of the two tile sums. -/
theorem W5_v46 (c : Dev nD) : W5 m ρ c (Proc.devRef .tc main_v46)
    = tailK
        (Host.reduceAdd (F := Ideal) (W4 m ρ c (Proc.devRef .tc main_v30_0)) (constant S_ .f32 0x00000000#32) reducesTo_S10x64x128_S64x128_d0 h_S_)
        (Host.reduceAdd (F := Ideal) (W4 m ρ c (Proc.devRef .tc main_v30_1)) (constant S_ .f32 0x00000000#32) reducesTo_S10x64x1_S64x1_d0 h_S_)
        (W4 m ρ c (Proc.devRef .tc main_arg11)) (W4 m ρ c (Proc.devRef .tc main_arg12)) := by
  show StableHlo.after hostOps2 (W4 m ρ c) (Proc.devRef .tc main_v46) = _
  after_results_simp
  rfl

/-- THE KERNEL PROGRAM'S RESULT is the reference's network of the arguments. -/
theorem value (c : Dev nD) : W5 m ρ c (Proc.devRef .tc main_v46)
    = Cert.Chain.net (F := Ideal) (m ((c : Thread nD τ).loc main_arg0)) (m ((c : Thread nD τ).loc main_arg1)) (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
        (m ((c : Thread nD τ).loc main_arg11)) (m ((c : Thread nD τ).loc main_arg12)) := by
  rw [W5_v46, W4_v30_0, W4_v30_1, W4_arg11, W4_arg12]
  have hs := reduce_sums (h₂ m c) (m ((c : Thread nD τ).loc main_arg2)) (Cert.KernelIdeal.Region1.G7 (V3 m ρ) c) (constant (F := Ideal) S_ .f32 0x00000000#32)
    (fun t g d => by
      show Cert.Spec.tileSum (fun r => Cert.KernelIdeal.Region1.H (V3 m ρ) c (ix2 r d)) (Cert.KernelIdeal.Region1.B (V3 m ρ) c) t g = _
      rw [H_eq m ρ c, show Cert.KernelIdeal.Region1.B (V3 m ρ) c = _ from funext (B_eq m ρ c)])
    (fun _ => Ideal.ofBits_zero_f32)
  have hc := reduce_counts (m ((c : Thread nD τ).loc main_arg2)) (Cert.KernelIdeal.Region1.G8 (V3 m ρ) c) (constant (F := Ideal) S_ .f32 0x00000000#32)
    (fun t g => by
      show Cert.Spec.tileSum (fun _ => 1) (Cert.KernelIdeal.Region1.B (V3 m ρ) c) t g = _
      rw [show Cert.KernelIdeal.Region1.B (V3 m ρ) c = _ from funext (B_eq m ρ c)])
    (fun _ => Ideal.ofBits_zero_f32)
  rw [hs, hc, tailK_eq]
  rfl

end Cert.KernelIdeal.KernelValue

end
-- ==== Proof.lean ====
/-
  A graph network — two rounds of "add each node's in-neighbours' features, then a two-layer perceptron", a mean over
  each graph, a linear layer and the logistic function — computed two ways over the extended reals.

  The kernel program leaves the neighbour sums to the host and runs each perceptron as a kernel over ten tiles of 5000
  nodes; its second kernel also pools its tile into the 64 graphs by multiplying with the matrix whose entry (node,
  graph) is 1 when the node's graph number is that graph and 0 otherwise, and the host adds the ten tiles. The
  reference pools by scattering every node's row onto its graph's row. The two agree entry by entry: a perceptron of a
  block of rows is the block of the perceptron's rows (a change of float format being the identity here); a weight 0
  annihilates every extended real and a weight 1 keeps it, so a tile's product is the sum of its rows numbered g; the
  tiles partition the nodes; and a node whose number is outside 0 … 63 has weight 0 in every graph, as the scatter
  drops it. No finiteness of the inputs is used.

  The frames of the two kernel programs are the generated ones; the reference's is its generated run with the result
  forgotten; the idealization rewrote nothing, so nothing is owed for it.
-/
import proofs.«403606_j52819507806389_3_alg».proof.Defs
import proofs.«403606_j52819507806389_3_alg».proof.Proof.Gen.Kernel
import proofs.«403606_j52819507806389_3_alg».proof.Proof.Gen.Kernel.Skeleton
import proofs.«403606_j52819507806389_3_alg».proof.Proof.Gen.Kernel.Launch
import proofs.«403606_j52819507806389_3_alg».proof.Proof.Gen.Kernel.Points
import proofs.«403606_j52819507806389_3_alg».proof.Proof.Gen.Kernel.Frame
import proofs.«403606_j52819507806389_3_alg».proof.Proof.Gen.KernelIdeal
import proofs.«403606_j52819507806389_3_alg».proof.Proof.Gen.KernelIdeal.Skeleton
import proofs.«403606_j52819507806389_3_alg».proof.Proof.Gen.KernelIdeal.Launch
import proofs.«403606_j52819507806389_3_alg».proof.Proof.Gen.KernelIdeal.Points
import proofs.«403606_j52819507806389_3_alg».proof.Proof.Gen.KernelIdeal.Frame
import proofs.«403606_j52819507806389_3_alg».proof.Proof.Gen.ReferenceIdeal
import proofs.«403606_j52819507806389_3_alg».proof.Proof.Gen.ReferenceIdeal.Run
import proofs.«403606_j52819507806389_3_alg».proof.Proof.Gen.Pre_finite_inputs
import proofs.«403606_j52819507806389_3_alg».proof.Proof.Chain
import proofs.«403606_j52819507806389_3_alg».proof.Proof.RunValue
import proofs.«403606_j52819507806389_3_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the network of the (agreeing) arguments in their result buffers. -/
theorem algebraic : Cert.algebraic_KernelIdeal_ReferenceIdeal := by
  intro m ρ m' ρ' _ hagree
  refine ⟨fun c => Cert.Chain.net (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
    (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.KernelValue.value m ρ c), (h c).2⟩)
      (Cert.KernelIdeal.RunValue.run_val (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12⟩ := hagree c
    rw [Cert.Chain.res_eq, e0, e1, e2, e3, e4, e5, e6, e7, e8, e9, e10, e11, e12]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
